-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S128x64 .f32) (main_arg3 : FVec F S64 .f32) (main_arg4 : FVec F S64x2 .f32) (main_arg5 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg4
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x64 : Shape := ⟨2, ![1, 64]⟩
abbrev S5000x64 : Shape := ⟨2, ![5000, 64]⟩
abbrev S64x64 : Shape := ⟨2, ![64, 64]⟩
abbrev S1600000x64 : Shape := ⟨2, ![1600000, 64]⟩
abbrev S100000x2 : Shape := ⟨2, ![100000, 2]⟩
abbrev S5000x2 : Shape := ⟨2, ![5000, 2]⟩
abbrev S1600000x2 : Shape := ⟨2, ![1600000, 2]⟩
abbrev S1x2 : Shape := ⟨2, ![1, 2]⟩

abbrev nBuf : Space → Nat
  | .hbm => 91
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S1600000x1, .f32⟩
  | .hbm, ⟨47, _⟩ => ⟨S1x64, .f32⟩
  | .hbm, ⟨48, _⟩ => ⟨S_, .f32⟩
  | .hbm, ⟨49, _⟩ => ⟨S1x64, .f32⟩
  | .hbm, ⟨50, _⟩ => ⟨S1x64, .f32⟩
  | .hbm, ⟨51, _⟩ => ⟨S64x64, .f32⟩
  | .hbm, ⟨52, _⟩ => ⟨S64x64, .f32⟩
  | .hbm, ⟨53, _⟩ => ⟨S1x64, .f32⟩
  | .hbm, ⟨54, _⟩ => ⟨S100000x64, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S1600000x64, .f32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x2, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x2, .f32⟩
  | .hbm, ⟨82, _⟩ => ⟨S1600000x2, .f32⟩
  | .hbm, ⟨83, _⟩ => ⟨S1600000x2, .f32⟩
  | .hbm, ⟨84, _⟩ => ⟨S_, .f32⟩
  | .hbm, ⟨85, _⟩ => ⟨S100000x2, .f32⟩
  | .hbm, ⟨86, _⟩ => ⟨S1600000x1, .i32⟩
  | .hbm, ⟨87, _⟩ => ⟨S100000x2, .f32⟩
  | .hbm, ⟨88, _⟩ => ⟨S1x2, .f32⟩
  | .hbm, ⟨89, _⟩ => ⟨S100000x2, .f32⟩
  | .hbm, ⟨90, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S1x64, .f32⟩
  | .local _ .vmem, ⟨3, _⟩ => ⟨S5000x64, .f32⟩
  | .local _ .vmem, ⟨4, _⟩ => ⟨S5000x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x2, .f32⟩
  | .local _ .vmem, ⟨17, _⟩ => ⟨S5000x2, .f32⟩
  | .local _ .vmem, ⟨18, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg2_1 : Ref sig .tc := ⟨.vmem, 18, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem2_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  shapeCasts_S64_S1x64 : S64.ShapeCasts S1x64
  bcast_S_S1x64 : S_.BroadcastsInDim S1x64 (![] : Fin 0 → Fin S1x64.rank)
  slices_S128x64_S64x64_0_0 : S128x64.Slices ![0, 0] S64x64
  slices_S128x64_S64x64_64_0 : S128x64.Slices ![64, 0] S64x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S1x64_S64x64_S1x64_1_0_0_1_n_n_wf : DotDims.WF S1x64 S64x64 S1x64 [1] [0] [0] [1] [] []
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x2_S5000x2_1_0_0_1_n_n_wf : DotDims.WF S5000x64 S64x2 S5000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x2.size a ≤ S64x2.size a
  hwx3_1 : ∀ i : grid3.Coords, EltTy.bits .f32 = 32 ∨ (Rect.block (s := S64x2) S64x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x2.size a ≤ S100000x2.size a
  hwx3_2 : ∀ i : grid3.Coords, EltTy.bits .f32 = 32 ∨ (Rect.block (s := S100000x2) S5000x2.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S1x64.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S5000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1x64 : Shape := ⟨2, ![1, 64]⟩
abbrev S100000x128 : Shape := ⟨2, ![100000, 128]⟩
abbrev S100000 : Shape := ⟨1, ![100000]⟩
abbrev S1600000x1 : Shape := ⟨2, ![1600000, 1]⟩
abbrev S1600000x64 : Shape := ⟨2, ![1600000, 64]⟩
abbrev S100000x2 : Shape := ⟨2, ![100000, 2]⟩
abbrev S1600000x2 : Shape := ⟨2, ![1600000, 2]⟩
abbrev S1x2 : Shape := ⟨2, ![1, 2]⟩

abbrev nBuf : Space → Nat
  | .hbm => 133
  | .vmem => 0
  | .smem => 0
  | _ => 0

abbrev hbmTy0_0 (i : Nat) : BufTy := match i % 128 with
  | 0 => ⟨S100000x64, .f32⟩
  | 1 => ⟨S2x1600000, .i32⟩
  | 2 => ⟨S128x64, .f32⟩
  | 3 => ⟨S64, .f32⟩
  | 4 => ⟨S64x2, .f32⟩
  | 5 => ⟨S2, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S64, .f32⟩
  | 12 => ⟨S1x64, .f32⟩
  | 13 => ⟨S_, .f32⟩
  | 14 => ⟨S1x64, .f32⟩
  | 15 => ⟨S1x64, .f32⟩
  | 16 => ⟨S100000x64, .f32⟩
  | 17 => ⟨S100000x128, .f32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S100000x64, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S1600000x1, .f32⟩
  | 65 => ⟨S1600000x64, .f32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S_, .f32⟩
  | 78 => ⟨S1600000, .f32⟩
  | 79 => ⟨S_, .f32⟩
  | 80 => ⟨S100000, .f32⟩
  | 81 => ⟨S1600000x1, .i32⟩
  | 82 => ⟨S100000, .f32⟩
  | 83 => ⟨S_, .f32⟩
  | 84 => ⟨S100000, .f32⟩
  | 85 => ⟨S100000, .i1⟩
  | 86 => ⟨S_, .f32⟩
  | 87 => ⟨S100000, .f32⟩
  | 88 => ⟨S100000, .f32⟩
  | 89 => ⟨S100000, .f32⟩
  | 90 => ⟨S_, .f32⟩
  | 91 => ⟨S_, .f32⟩
  | 92 => ⟨S100000, .f32⟩
  | 93 => ⟨S100000, .f32⟩
  | 94 => ⟨S100000x2, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000, .f32⟩
  | 113 => ⟨S1600000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x2, .f32⟩
  | 123 => ⟨S1600000x1, .f32⟩
  | 124 => ⟨S1600000x2, .f32⟩
  | 125 => ⟨S1600000x2, .f32⟩
  | 126 => ⟨S_, .f32⟩
  | 127 => ⟨S100000x2, .f32⟩
  | _ => ⟨S100000x64, .f32⟩

abbrev hbmTy0_1 (i : Nat) : BufTy := match i % 128 with
  | 0 => ⟨S1600000x1, .i32⟩
  | 1 => ⟨S100000x2, .f32⟩
  | 2 => ⟨S1x2, .f32⟩
  | 3 => ⟨S100000x2, .f32⟩
  | 4 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call1_cst : Ref sig .tc := ⟨.hbm, 74, rfl⟩
abbrev main_call1_v0 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_cst_15 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_16 : Ref sig .tc := ⟨.hbm, 90, rfl⟩
abbrev main_call2_v0 : Ref sig .tc := ⟨.hbm, 91, rfl⟩
abbrev main_call2_v1 : Ref sig .tc := ⟨.hbm, 92, rfl⟩
abbrev main_v62 : Ref sig .tc := ⟨.hbm, 93, rfl⟩
abbrev main_v63 : Ref sig .tc := ⟨.hbm, 94, rfl⟩
abbrev main_c_17 : Ref sig .tc := ⟨.hbm, 95, rfl⟩
abbrev main_v64 : Ref sig .tc := ⟨.hbm, 96, rfl⟩
abbrev main_v65 : Ref sig .tc := ⟨.hbm, 97, rfl⟩
abbrev main_c_18 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_19 : Ref sig .tc := ⟨.hbm, 104, rfl⟩
abbrev main_v71 : Ref sig .tc := ⟨.hbm, 105, rfl⟩
abbrev main_v72 : Ref sig .tc := ⟨.hbm, 106, rfl⟩
abbrev main_c_20 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_21 : Ref sig .tc := ⟨.hbm, 114, rfl⟩
abbrev main_v79 : Ref sig .tc := ⟨.hbm, 115, rfl⟩
abbrev main_v80 : Ref sig .tc := ⟨.hbm, 116, rfl⟩
abbrev main_c_22 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_23 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S100000x64_S64_d0 : S100000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x2_S100000x2_1_0_0_1_n_n_wf : DotDims.WF S100000x64 S64x2 S100000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

class Facts : Prop extends Facts₀ where

variable [Facts]
-- ==== Proof.Out.lean ====
/-
  The function both programs compute, written once.

  Graph part (from the edge list `e` alone): `src`, `dst` its two rows; `deg` the in-degree (a scatter-add of ones at
  `dst`); `dis = deg > 0 ? rsqrt (max deg 1) : 0`; `nrm k = dis (src k) · dis (dst k)` per edge; `srcIx` the source row
  with negative entries wrapped by the node count, as jnp's indexing spells a gather.
  One propagation step of width `d`: gather the rows of a node table at `srcIx`, scale edge `k` by `nrm k`, scatter-add
  at `dst` into zeros (`agg64`, `agg2`).
  Dense part, index by index on the extended reals: `colSum` (the column sums of the features), `lin1`
  (features times the upper half of the first weight, plus a row), `biasRelu` (`max (a + b) 0`), `lin2`
  (hidden times the second weight).
  `out` chains them: mean = colSum / n; row = mean · (lower half of W1); h1 = lin1; step; bias + relu; lin2; step; + b2.
-/
import proofs.«111441_j72146860638719_1_alg».proof.Proof.Gen.KernelIdeal
import Idealize.ShloMosaic.Lib.ValueIdx

noncomputable section

namespace Cert.KernelIdeal.Out

open Idealize.ShloMosaic Idealize.ShloMosaic.ValueIdx Cert.KernelIdeal Cert.KernelIdeal.Gen

/-! ## The dense pieces, index by index -/

/-- Column sums of the feature table, kept as a one-row table. -/
def colSum (x : FVec Ideal S100000x64 .f32) : FVec Ideal S1x64 .f32 :=
  fun j => ∑ r : Fin 100000, x (ix2 r (j 1))

/-- Row `r` of `x` against column `j` of `wa`, plus entry `j` of the row `b`. -/
def lin1 (x : FVec Ideal S100000x64 .f32) (wa : FVec Ideal S64x64 .f32) (b : FVec Ideal S1x64 .f32) :
    FVec Ideal S100000x64 .f32 :=
  fun i => (∑ k : Fin 64, x (ix2 (i 0) k) * wa (ix2 k (i 1))) + b (ix2 0 (i 1))

/-- `max (a + b) 0`, the row `b` repeated down the table. -/
def biasRelu (a : FVec Ideal S100000x64 .f32) (b : FVec Ideal S1x64 .f32) : FVec Ideal S100000x64 .f32 :=
  fun i => max (a i + b (ix2 0 (i 1))) 0

/-- Row `r` of `h` against column `j` of `w`. -/
def lin2 (h : FVec Ideal S100000x64 .f32) (w : FVec Ideal S64x2 .f32) : FVec Ideal S100000x2 .f32 :=
  fun i => ∑ k : Fin 64, h (ix2 (i 0) k) * w (ix2 k (i 1))

/-! ## The graph part, as the host operations spell it -/

section Graph
variable {F : FTy → Type} [FloatOps F] (e : IVec S2x1600000 32)

def src : IVec S1600000 32 :=
  shapeCast S1600000 (extractStridedSlice S1x1600000 ![0, 0] e slices_S2x1600000_S1x1600000_0_0) shapeCasts_S1x1600000_S1600000
def dst : IVec S1600000 32 :=
  shapeCast S1600000 (extractStridedSlice S1x1600000 ![1, 0] e slices_S2x1600000_S1x1600000_1_0) shapeCasts_S1x1600000_S1600000
/-- The in-degree of every node: ones scatter-added at `dst` into zeros. -/
def deg : FVec F S100000 .f32 :=
  Host.scatterAdd scatter_S100000_S1600000x1_S1600000_n_0_0_1
    (broadcastInDim S100000 ![] bcast_S_S100000 (constant (F := F) S_ .f32 0x00000000#32))
    (broadcastInDim S1600000x1 ![0] bcast_S1600000_S1600000x1_0 (dst e))
    (broadcastInDim S1600000 ![] bcast_S_S1600000 (constant (F := F) S_ .f32 0x3F800000#32))
/-- `deg > 0 ? rsqrt (max deg 1) : 0`. -/
def dis : FVec F S100000 .f32 :=
  select (cmpf .ogt (deg e) (broadcastInDim S100000 ![] bcast_S_S100000 (constant (F := F) S_ .f32 0x00000000#32)))
    (Host.rsqrt (maximumf (deg e) (broadcastInDim S100000 ![] bcast_S_S100000 (constant (F := F) S_ .f32 0x3F800000#32))))
    (broadcastInDim S100000 ![] bcast_S_S100000 (id (constant (F := F) S_ .f32 0x00000000#32)))
/-- An index row with its negative entries wrapped by the node count. -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v
def srcIx : IVec S1600000x1 32 := broadcastInDim S1600000x1 ![0] bcast_S1600000_S1600000x1_0 (wrap (src e))
def dstIx : IVec S1600000x1 32 := broadcastInDim S1600000x1 ![0] bcast_S1600000_S1600000x1_0 (wrap (dst e))
/-- Per edge, `dis (src) · dis (dst)`, as a column. -/
def nrm : FVec F S1600000x1 .f32 :=
  broadcastInDim S1600000x1 ![0] bcast_S1600000_S1600000x1_0
    (mulf (Host.gather gather_S100000_S1600000x1_S1600000_n_0_n_n_0_1_1 (dis e) (srcIx e))
      (Host.gather gather_S100000_S1600000x1_S1600000_n_0_n_n_0_1_1 (dis e) (dstIx e)))
/-- One propagation step on a table of width 64. -/
def agg64 (h : FVec F S100000x64 .f32) : FVec F S100000x64 .f32 :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 (dst e))
    (mulf (Host.gather gather_S100000x64_S1600000x1_S1600000x64_1_0_n_n_0_1_164 h (srcIx e))
      (broadcastInDim S1600000x64 ![0, 1] bcast_S1600000x1_S1600000x64_0_1 (nrm e)))
/-- One propagation step on a table of width 2. -/
def agg2 (h : FVec F S100000x2 .f32) : FVec F S100000x2 .f32 :=
  Host.scatterAdd scatter_S100000x2_S1600000x1_S1600000x2_1_0_0_1
    (broadcastInDim S100000x2 ![] bcast_S_S100000x2 (constant (F := F) S_ .f32 0x00000000#32))
    (broadcastInDim S1600000x1 ![0] bcast_S1600000_S1600000x1_0 (dst e))
    (mulf (Host.gather gather_S100000x2_S1600000x1_S1600000x2_1_0_n_n_0_1_12 h (srcIx e))
      (broadcastInDim S1600000x2 ![0, 1] bcast_S1600000x1_S1600000x2_0_1 (nrm e)))
end Graph

/-! ## The whole function -/

/-- The mean of the features, as a one-row table: the column sums over the node count. -/
def mean (x : FVec Ideal S100000x64 .f32) : FVec Ideal S1x64 .f32 :=
  Host.divf (F := Ideal) (colSum x) (broadcastInDim S1x64 ![] bcast_S_S1x64 (constant (F := Ideal) S_ .f32 0x47C35000#32))
/-- The mean row through the lower half of the first weight. -/
def meanRow (x : FVec Ideal S100000x64 .f32) (w1 : FVec Ideal S128x64 .f32) : FVec Ideal S1x64 .f32 :=
  Host.dotGeneral (F := Ideal) dot_S1x64_S64x64_S1x64_1_0_0_1_n_n none (mean x)
    (extractStridedSlice S64x64 ![64, 0] w1 slices_S128x64_S64x64_64_0)
/-- The first dense layer's table: features through the upper half of the first weight, plus the mean row. -/
def h1 (x : FVec Ideal S100000x64 .f32) (w1 : FVec Ideal S128x64 .f32) : FVec Ideal S100000x64 .f32 :=
  lin1 x (extractStridedSlice S64x64 ![0, 0] w1 slices_S128x64_S64x64_0_0) (meanRow x w1)
/-- The hidden table after the first propagation, bias and relu. -/
def hidden (x : FVec Ideal S100000x64 .f32) (e : IVec S2x1600000 32) (w1 : FVec Ideal S128x64 .f32)
    (b1 : FVec Ideal S64 .f32) : FVec Ideal S100000x64 .f32 :=
  biasRelu (agg64 (F := Ideal) e (h1 x w1)) (shapeCast S1x64 b1 shapeCasts_S64_S1x64)
/-- The result. -/
def out (x : FVec Ideal S100000x64 .f32) (e : IVec S2x1600000 32) (w1 : FVec Ideal S128x64 .f32)
    (b1 : FVec Ideal S64 .f32) (w2 : FVec Ideal S64x2 .f32) (b2 : FVec Ideal S2 .f32) : FVec Ideal S100000x2 .f32 :=
  addf (F := Ideal) (agg2 (F := Ideal) e (lin2 (hidden x e w1 b1) w2))
    (broadcastInDim S100000x2 ![0, 1] bcast_S1x2_S100000x2_0_1 (broadcastInDim S1x2 ![1] bcast_S2_S1x2_1 b2))

end Cert.KernelIdeal.Out

end
-- ==== Proof.RefDense.lean ====
/-
  The reference's three dense stages, each as the index-by-index function the kernel side is stated with.
  (1) Its first product contracts the 128 columns of [features | mean repeated] with the first weight: the sum over
  128 splits into the first 64 columns (features against the upper half) and the last 64 (the mean row against the
  lower half), and the mean is the column sum over the node count on both sides. Splitting a finite sum needs only
  that addition on the extended reals is commutative and associative.
  (2) bias + relu is `max (a + b) 0` entry by entry. (3) Its second product is the plain row-by-column sum.
-/
import proofs.«111441_j72146860638719_1_alg».proof.Proof.RefRead
import proofs.«111441_j72146860638719_1_alg».proof.Proof.Out
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Dense

open Idealize.ShloMosaic Idealize.ShloMosaic.ValueIdx
open Cert.ReferenceIdeal Cert.ReferenceIdeal.Gen Cert.ReferenceIdeal.Read

/-- A sum over 128 terms is the sum of its first 64 and its last 64. -/
theorem sum_split (f : Fin 128 → EReal) :
    ∑ k : Fin 128, f k = (∑ k : Fin 64, f (Fin.castAdd 64 k)) + ∑ k : Fin 64, f (Fin.natAdd 64 k) :=
  Fin.sum_univ_add (a := 64) (b := 64) f

/-- A column below 64 of the joined table is a column of the features. -/
theorem joined_left (x0 : FVec Ideal S100000x64 .f32) (j : S100000x128.Idx) (r : Fin 100000) (k : Fin 64)
    (h0 : (j 0).val = r.val) (h1 : (j 1).val = k.val) :
    val_main_v9 (F := Ideal) x0 j = x0 (ix2 r k) := by
  unfold val_main_v9
  exact concatenate_pair_apply_left 1 x0 (val_main_v8 (F := Ideal) x0) concatenates_S100000x64_S100000x64_S100000x128_d1 j rfl (ix2 r k)
    (fun b => match b with
      | ⟨0, _⟩ => h0.symm
      | ⟨1, _⟩ => h1.symm)

/-- A column from 64 on of the joined table is a column of the repeated mean. -/
theorem joined_right (x0 : FVec Ideal S100000x64 .f32) (j : S100000x128.Idx) (r : Fin 100000) (k : Fin 64)
    (h0 : (j 0).val = r.val) (h1 : (j 1).val = 64 + k.val) :
    val_main_v9 (F := Ideal) x0 j = val_main_v8 (F := Ideal) x0 (ix2 r k) := by
  unfold val_main_v9
  exact concatenate_pair_apply_right 1 x0 (val_main_v8 (F := Ideal) x0) concatenates_S100000x64_S100000x64_S100000x128_d1 j rfl rfl (ix2 r k)
    (fun b hb => match b, hb with
      | ⟨0, _⟩, _ => h0.symm
      | ⟨1, _⟩, hb => absurd rfl hb)
    (by show k.val + 64 = (j 1).val; omega)

/-- The repeated mean at (r, k) is the kernel side's mean row at k: the same column sum over the same constant. -/
theorem mean_eq (x0 : FVec Ideal S100000x64 .f32) (r : Fin 100000) (k : Fin 64) :
    val_main_v8 (F := Ideal) x0 (ix2 r k) = Cert.KernelIdeal.Out.mean x0 (ix2 0 k) := by
  rw [val_main_v8_apply, val_main_v7_apply, val_main_v5_apply, val_main_v6_apply, val_main_cst_0_apply, val_main_v4_apply,
    val_main_cst_apply]
  show _ = FloatOps.hostDivf (Cert.KernelIdeal.Out.colSum x0 (ix2 0 k)) (FloatOps.ofBits .f32 0x47C35000#32)
  have hz : (FloatOps.ofBits (F := Ideal) .f32 0x00000000#32) = (0 : EReal) := Ideal.ofBits_zero_f32
  rw [hz, zero_add]
  have hc : Cert.KernelIdeal.Out.colSum x0 (ix2 0 k) = ∑ q : Fin 100000, x0 (ix2 q k) := rfl
  have hs : (∑ q : Fin 100000, x0 (idx_main_v4 (idx_main_v5 (idx_main_v8 (ix2 r k))) q)) = ∑ q : Fin 100000, x0 (ix2 q k) :=
    Finset.sum_congr rfl fun q _ => congrArg x0 (funext fun a => Fin.ext (by
      match a with
      | ⟨0, _⟩ => rfl
      | ⟨1, _⟩ => rfl))
  rw [hc, hs]

/-! The mean row against the lower half of the weight: the kernel side's one-row product, read at an index. -/

theorem meanRow_lhs_row (i : Cert.KernelIdeal.S1x64.Idx) (q : Cert.KernelIdeal.dot_S1x64_S64x64_S1x64_1_0_0_1_n_n.contr.Idx) :
    (Cert.KernelIdeal.dot_S1x64_S64x64_S1x64_1_0_0_1_n_n.lhsIdx i q 0).val = (i 0).val := by
  unfold DotDims.lhsIdx
  rw [dif_neg (show ¬(0 : Fin Cert.KernelIdeal.S1x64.rank) ∈ Cert.KernelIdeal.dot_S1x64_S64x64_S1x64_1_0_0_1_n_n.lhsBatch by decide), dif_pos (show (0 : Fin Cert.KernelIdeal.S1x64.rank) ∈ Cert.KernelIdeal.dot_S1x64_S64x64_S1x64_1_0_0_1_n_n.lhsNonContracting by decide)]
  rfl
theorem meanRow_lhs_col (i : Cert.KernelIdeal.S1x64.Idx) (q : Cert.KernelIdeal.dot_S1x64_S64x64_S1x64_1_0_0_1_n_n.contr.Idx) :
    (Cert.KernelIdeal.dot_S1x64_S64x64_S1x64_1_0_0_1_n_n.lhsIdx i q 1).val = (q ⟨0, by decide⟩).val :=
  Cert.KernelIdeal.dot_S1x64_S64x64_S1x64_1_0_0_1_n_n.lhsIdx_val_of_single rfl i q
theorem meanRow_rhs_row (i : Cert.KernelIdeal.S1x64.Idx) (q : Cert.KernelIdeal.dot_S1x64_S64x64_S1x64_1_0_0_1_n_n.contr.Idx) :
    (Cert.KernelIdeal.dot_S1x64_S64x64_S1x64_1_0_0_1_n_n.rhsIdx i q 0).val = (q ⟨0, by decide⟩).val :=
  Cert.KernelIdeal.dot_S1x64_S64x64_S1x64_1_0_0_1_n_n.rhsIdx_val_of_single rfl i q
theorem meanRow_rhs_col (i : Cert.KernelIdeal.S1x64.Idx) (q : Cert.KernelIdeal.dot_S1x64_S64x64_S1x64_1_0_0_1_n_n.contr.Idx) :
    (Cert.KernelIdeal.dot_S1x64_S64x64_S1x64_1_0_0_1_n_n.rhsIdx i q 1).val = (i 1).val := by
  unfold DotDims.rhsIdx
  rw [dif_neg (show ¬(1 : Fin Cert.KernelIdeal.S64x64.rank) ∈ Cert.KernelIdeal.dot_S1x64_S64x64_S1x64_1_0_0_1_n_n.rhsBatch by decide), dif_pos (show (1 : Fin Cert.KernelIdeal.S64x64.rank) ∈ Cert.KernelIdeal.dot_S1x64_S64x64_S1x64_1_0_0_1_n_n.rhsNonContracting by decide)]
  rfl

/-- A one-row table times a 64×64 table, at column `c`: the sum over the 64 shared coordinates. -/
theorem rowProduct_apply (m : FVec Ideal Cert.KernelIdeal.S1x64 .f32) (w : FVec Ideal Cert.KernelIdeal.S64x64 .f32) (c : Fin 64) :
    Host.dotGeneral (F := Ideal) Cert.KernelIdeal.dot_S1x64_S64x64_S1x64_1_0_0_1_n_n none m w (ix2 0 c)
      = ∑ k : Fin 64, m (ix2 0 k) * w (ix2 k c) := by
  simp only [Host.dotGeneral]
  rw [Ideal.dotGeneral_apply, ← Equiv.sum_comp (ValueIdx.contrEquiv1 Cert.KernelIdeal.dot_S1x64_S64x64_S1x64_1_0_0_1_n_n 64 rfl rfl).symm]
  refine Finset.sum_congr rfl fun k _ => ?_
  have hk := ValueIdx.contrEquiv1_symm_val Cert.KernelIdeal.dot_S1x64_S64x64_S1x64_1_0_0_1_n_n 64 rfl rfl k
  have el : Cert.KernelIdeal.dot_S1x64_S64x64_S1x64_1_0_0_1_n_n.lhsIdx (ix2 0 c) ((ValueIdx.contrEquiv1 Cert.KernelIdeal.dot_S1x64_S64x64_S1x64_1_0_0_1_n_n 64 rfl rfl).symm k) = ix2 0 k := funext fun a => Fin.ext (by
    match a with
    | ⟨0, _⟩ => exact meanRow_lhs_row _ _
    | ⟨1, _⟩ => exact (meanRow_lhs_col _ _).trans hk)
  have er : Cert.KernelIdeal.dot_S1x64_S64x64_S1x64_1_0_0_1_n_n.rhsIdx (ix2 0 c) ((ValueIdx.contrEquiv1 Cert.KernelIdeal.dot_S1x64_S64x64_S1x64_1_0_0_1_n_n 64 rfl rfl).symm k) = ix2 k c := funext fun a => Fin.ext (by
    match a with
    | ⟨0, _⟩ => exact (meanRow_rhs_row _ _).trans hk
    | ⟨1, _⟩ => exact meanRow_rhs_col _ _)
  rw [el, er]

/-- The upper half of the weight at (k, c) is the weight at row k. -/
theorem upper_apply (x2 : FVec Ideal S128x64 .f32) (k c : Fin 64) (j : S128x64.Idx)
    (h0 : (j 0).val = k.val) (h1 : (j 1).val = c.val) :
    extractStridedSlice Cert.KernelIdeal.S64x64 ![0, 0] x2 Cert.KernelIdeal.Facts₀.slices_S128x64_S64x64_0_0 (ix2 k c) = x2 j :=
  extractStridedSlice_apply ![0, 0] x2 Cert.KernelIdeal.Facts₀.slices_S128x64_S64x64_0_0 (ix2 k c) j (fun a => match a with
    | ⟨0, _⟩ => by show (j 0).val = 0 + k.val; omega
    | ⟨1, _⟩ => by show (j 1).val = 0 + c.val; omega)

/-- The lower half of the weight at (k, c) is the weight at row 64 + k. -/
theorem lower_apply (x2 : FVec Ideal S128x64 .f32) (k c : Fin 64) (j : S128x64.Idx)
    (h0 : (j 0).val = 64 + k.val) (h1 : (j 1).val = c.val) :
    extractStridedSlice Cert.KernelIdeal.S64x64 ![64, 0] x2 Cert.KernelIdeal.Facts₀.slices_S128x64_S64x64_64_0 (ix2 k c) = x2 j :=
  extractStridedSlice_apply ![64, 0] x2 Cert.KernelIdeal.Facts₀.slices_S128x64_S64x64_64_0 (ix2 k c) j (fun a => match a with
    | ⟨0, _⟩ => by show (j 0).val = 64 + k.val; omega
    | ⟨1, _⟩ => by show (j 1).val = 0 + c.val; omega)

/-- The first product at (r, c): the 128 terms split into the features against the upper half of the weight and the
    mean against the lower half. -/
theorem v20_at (x0 : FVec Ideal S100000x64 .f32) (x2 : FVec Ideal S128x64 .f32) (r : Fin 100000) (c : Fin 64) :
    val_main_v20 (F := Ideal) x0 x2 (ix2 r c) = Cert.KernelIdeal.Out.h1 x0 x2 (ix2 r c) := by
  rw [val_main_v20_apply, sum_split]
  show _ = (∑ k : Fin 64, x0 (ix2 r k)
      * extractStridedSlice Cert.KernelIdeal.S64x64 ![0, 0] x2 Cert.KernelIdeal.Facts₀.slices_S128x64_S64x64_0_0 (ix2 k c))
    + Host.dotGeneral (F := Ideal) Cert.KernelIdeal.dot_S1x64_S64x64_S1x64_1_0_0_1_n_n none (Cert.KernelIdeal.Out.mean x0)
        (extractStridedSlice Cert.KernelIdeal.S64x64 ![64, 0] x2 Cert.KernelIdeal.Facts₀.slices_S128x64_S64x64_64_0) (ix2 0 c)
  rw [rowProduct_apply]
  refine congrArg₂ (· + ·) (Finset.sum_congr rfl fun k _ => ?_) (Finset.sum_congr rfl fun k _ => ?_)
  · rw [joined_left x0 _ r k rfl rfl, upper_apply x2 k c (ridx_main_v20 (ix2 r c) (Fin.castAdd 64 k)) rfl rfl]
  · rw [joined_right x0 _ r k rfl rfl, mean_eq, lower_apply x2 k c (ridx_main_v20 (ix2 r c) (Fin.natAdd 64 k)) rfl rfl]

/-- (1) The reference's first dense product is `Out.h1`. -/
theorem v20_eq (x0 : FVec Ideal S100000x64 .f32) (x2 : FVec Ideal S128x64 .f32) :
    val_main_v20 (F := Ideal) x0 x2 = Cert.KernelIdeal.Out.h1 x0 x2 := by
  funext i
  obtain ⟨r, c, rfl⟩ : ∃ r c, i = ix2 r c := ⟨i 0, i 1, eq_ix2 i⟩
  exact v20_at x0 x2 r c

/-- (2) The reference's bias and relu on any table `a`. -/
theorem relu_eq (a : FVec Ideal S100000x64 .f32) (x3 : FVec Ideal S64 .f32) :
    maximumf (F := Ideal) (addf a (val_main_v50 (F := Ideal) x3)) (val_main_call1_v0 (F := Ideal))
      = Cert.KernelIdeal.Out.biasRelu a (shapeCast Cert.KernelIdeal.S1x64 x3 Cert.KernelIdeal.Facts₀.shapeCasts_S64_S1x64) := by
  funext i
  rw [maximumf_apply, addf_apply, val_main_v50_apply, val_main_v49_apply, val_main_call1_v0_apply]
  unfold Cert.KernelIdeal.Out.biasRelu
  rw [val_main_call1_cst_apply]
  have hz : (FloatOps.ofBits (F := Ideal) .f32 0x00000000#32) = (0 : EReal) := Ideal.ofBits_zero_f32
  rw [hz]
  have hb : shapeCast Cert.KernelIdeal.S1x64 x3 Cert.KernelIdeal.Facts₀.shapeCasts_S64_S1x64 (ix2 0 (i 1))
      = x3 (idx_main_v49 (idx_main_v50 i)) :=
    shapeCast_apply x3 Cert.KernelIdeal.Facts₀.shapeCasts_S64_S1x64 (ix2 0 (i 1)) (idx_main_v49 (idx_main_v50 i))
      (by rewrite [Shape.rowMajor_val_two, Shape.rowMajor_val_one]; show (i 1).val = 0 * 64 + (i 1).val; omega)
  rw [hb]

/-- (3) The reference's second dense product on any table `h`. -/
theorem dot2_eq (h : FVec Ideal S100000x64 .f32) (x4 : FVec Ideal S64x2 .f32) :
    Host.dotGeneral (F := Ideal) dot_S100000x64_S64x2_S100000x2_1_0_0_1_n_n none h x4 = Cert.KernelIdeal.Out.lin2 h x4 := by
  funext i
  simp only [Host.dotGeneral]
  rw [Ideal.dotGeneral_apply, ← Equiv.sum_comp (ValueIdx.contrEquiv1 dot_S100000x64_S64x2_S100000x2_1_0_0_1_n_n 64 rfl rfl).symm]
  unfold Cert.KernelIdeal.Out.lin2
  refine Finset.sum_congr rfl fun k _ => ?_
  have hk := ValueIdx.contrEquiv1_symm_val dot_S100000x64_S64x2_S100000x2_1_0_0_1_n_n 64 rfl rfl k
  have el : dot_S100000x64_S64x2_S100000x2_1_0_0_1_n_n.lhsIdx i ((ValueIdx.contrEquiv1 dot_S100000x64_S64x2_S100000x2_1_0_0_1_n_n 64 rfl rfl).symm k) = ix2 (i 0) k := funext fun a => Fin.ext (by
    match a with
    | ⟨0, _⟩ => exact lhs_main_v63_0 _ _
    | ⟨1, _⟩ => exact (lhs_main_v63_1 _ _).trans hk)
  have er : dot_S100000x64_S64x2_S100000x2_1_0_0_1_n_n.rhsIdx i ((ValueIdx.contrEquiv1 dot_S100000x64_S64x2_S100000x2_1_0_0_1_n_n 64 rfl rfl).symm k) = ix2 k (i 1) := funext fun a => Fin.ext (by
    match a with
    | ⟨0, _⟩ => exact (rhs_main_v63_0 _ _).trans hk
    | ⟨1, _⟩ => exact rhs_main_v63_1 _ _)
  rw [el, er]
  rfl

end Cert.ReferenceIdeal.Dense

end
-- ==== Proof.RefOut.lean ====
/-
  The reference's result is `Out.out` of its arguments: its graph part is the same chain of host operations (computed
  twice there, once per layer, from the same edge list), its propagation steps the same gather, scale and scatter-add,
  and its three dense stages are the index-by-index functions of `RefDense`.
-/
import proofs.«111441_j72146860638719_1_alg».proof.Proof.RefRead
import proofs.«111441_j72146860638719_1_alg».proof.Proof.Out
import proofs.«111441_j72146860638719_1_alg».proof.Proof.RefDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.OutEq

open Idealize.ShloMosaic Idealize.ShloMosaic.ValueIdx
open Cert.ReferenceIdeal Cert.ReferenceIdeal.Gen Cert.ReferenceIdeal.Read

/-! ## The graph part

Everything here depends on the edge list alone and holds over any float family: each stage of the reference is, term
for term, the piece of `Out` with the same meaning. The stages are compared a level at a time (degree, then its inverse
square root, then the per-edge factor), each step rewriting with the ones before it, so that no comparison looks
further than one new operation deep. The gathers and scatter-adds are carried along as they stand. -/

section Graph
variable {F : FTy → Type} [FloatOps F] (x1 : IVec S2x1600000 32)

/-- The first row of the edge list. -/
theorem src_eq : val_main_v1 (F := F) x1 = Cert.KernelIdeal.Out.src x1 := rfl
/-- The second row of the edge list. -/
theorem dst_eq : val_main_v3 (F := F) x1 = Cert.KernelIdeal.Out.dst x1 := rfl

/-- The in-degree, as the first layer computes it. -/
theorem deg_eq : val_main_v13 (F := F) x1 = Cert.KernelIdeal.Out.deg (F := F) x1 := rfl
/-- The in-degree, as the second layer computes it again. -/
theorem deg_eq' : val_main_v56 (F := F) x1 = Cert.KernelIdeal.Out.deg (F := F) x1 := rfl

/-- `deg > 0 ? rsqrt (max deg 1) : 0`, first layer. -/
theorem dis_eq : val_main_v19 (F := F) x1 = Cert.KernelIdeal.Out.dis (F := F) x1 := by
  unfold val_main_v19 val_main_v15 val_main_v18 val_main_v17
  rw [deg_eq]
  rfl
/-- The same, second layer. -/
theorem dis_eq' : val_main_v62 (F := F) x1 = Cert.KernelIdeal.Out.dis (F := F) x1 := by
  unfold val_main_v62 val_main_v58 val_main_v61 val_main_v60
  rw [deg_eq']
  rfl

/-- The source row with negative entries wrapped: it is formed four times (twice per layer). -/
theorem v26_eq : val_main_v26 (F := F) x1 = Cert.KernelIdeal.Out.srcIx x1 := rfl
theorem v41_eq : val_main_v41 (F := F) x1 = Cert.KernelIdeal.Out.srcIx x1 := rfl
theorem v69_eq : val_main_v69 (F := F) x1 = Cert.KernelIdeal.Out.srcIx x1 := rfl
theorem v84_eq : val_main_v84 (F := F) x1 = Cert.KernelIdeal.Out.srcIx x1 := rfl
/-- The target row with negative entries wrapped: once per layer. -/
theorem v33_eq : val_main_v33 (F := F) x1 = Cert.KernelIdeal.Out.dstIx x1 := rfl
theorem v76_eq : val_main_v76 (F := F) x1 = Cert.KernelIdeal.Out.dstIx x1 := rfl

/-- The per-edge factor `dis (src) · dis (dst)` as a column, first layer. -/
theorem nrm_eq : val_main_v43 (F := F) x1 = Cert.KernelIdeal.Out.nrm (F := F) x1 := by
  unfold val_main_v43 val_main_v35 val_main_v27 val_main_v34
  rw [dis_eq, v26_eq, v33_eq]
  rfl
/-- The same, second layer. -/
theorem nrm_eq' : val_main_v86 (F := F) x1 = Cert.KernelIdeal.Out.nrm (F := F) x1 := by
  unfold val_main_v86 val_main_v78 val_main_v70 val_main_v77
  rw [dis_eq', v69_eq, v76_eq]
  rfl

/-- One propagation step of width 64 on any node table `h`: gather at the wrapped sources, scale by the per-edge
    factor repeated along the row, scatter-add at the targets into zeros. -/
theorem agg64_eq (h : FVec F S100000x64 .f32) :
    Host.scatterAdd scatter_S100000x64_S1600000x1_S1600000x64_1_0_0_1 (val_main_v46 (F := F)) (val_main_v47 (F := F) x1)
      (mulf (Host.gather gather_S100000x64_S1600000x1_S1600000x64_1_0_n_n_0_1_164 h (val_main_v41 (F := F) x1))
        (val_main_v44 (F := F) x1))
      = Cert.KernelIdeal.Out.agg64 (F := F) x1 h := by
  unfold val_main_v44
  rw [nrm_eq, v41_eq]
  rfl

/-- One propagation step of width 2 on any node table `h`. -/
theorem agg2_eq (h : FVec F S100000x2 .f32) :
    Host.scatterAdd scatter_S100000x2_S1600000x1_S1600000x2_1_0_0_1 (val_main_v89 (F := F)) (val_main_v90 (F := F) x1)
      (mulf (Host.gather gather_S100000x2_S1600000x1_S1600000x2_1_0_n_n_0_1_12 h (val_main_v84 (F := F) x1))
        (val_main_v87 (F := F) x1))
      = Cert.KernelIdeal.Out.agg2 (F := F) x1 h := by
  unfold val_main_v87
  rw [nrm_eq', v84_eq]
  rfl

end Graph

/-! ## The whole chain on the extended reals -/

/-- The reference's result, stage by stage, is the one function `Out.out`. -/
theorem out_eq (x0 : FVec Ideal S100000x64 .f32) (x1 : IVec S2x1600000 32) (x2 : FVec Ideal S128x64 .f32)
    (x3 : FVec Ideal S64 .f32) (x4 : FVec Ideal S64x2 .f32) (x5 : FVec Ideal S2 .f32) :
    val_main_v94 (F := Ideal) x0 x1 x2 x3 x4 x5 = Cert.KernelIdeal.Out.out x0 x1 x2 x3 x4 x5 := by
  -- first layer: the dense product is `h1`, then one propagation step of width 64
  have h48 : val_main_v48 (F := Ideal) x0 x1 x2
      = Cert.KernelIdeal.Out.agg64 (F := Ideal) x1 (Cert.KernelIdeal.Out.h1 x0 x2) := by
    unfold val_main_v48 val_main_v45 val_main_v42
    rw [Dense.v20_eq]
    exact agg64_eq (F := Ideal) x1 _
  -- bias and relu give the hidden table
  have h52 : val_main_v52 (F := Ideal) x0 x1 x2 x3 = Cert.KernelIdeal.Out.hidden x0 x1 x2 x3 := by
    unfold val_main_v52 val_main_v51
    rw [h48, Dense.relu_eq]
    rfl
  -- second layer: the dense product is `lin2` of the hidden table, then one propagation step of width 2
  have h91 : val_main_v91 (F := Ideal) x0 x1 x2 x3 x4
      = Cert.KernelIdeal.Out.agg2 (F := Ideal) x1
          (Cert.KernelIdeal.Out.lin2 (Cert.KernelIdeal.Out.hidden x0 x1 x2 x3) x4) := by
    unfold val_main_v91 val_main_v88 val_main_v85 val_main_v63
    rw [h52, Dense.dot2_eq]
    exact agg2_eq (F := Ideal) x1 _
  -- the last bias, repeated down the table
  unfold val_main_v94
  rw [h91]
  rfl

end Cert.ReferenceIdeal.OutEq

end
-- ==== Proof.Region0.lean ====
/-
  Region 0 (the column-sum kernel) as a value: twenty grid points, point `t` adds the column sums of rows
  `5000 t … 5000 t + 4999` to a one-row accumulator that point 0 first clears; the accumulator is written back
  once, after the last point. So the output array ends at the column sums of the whole table.
-/
import proofs.«111441_j72146860638719_1_alg».proof.Proof.Gen.KernelIdeal.Frame
import proofs.«111441_j72146860638719_1_alg».proof.Proof.Out
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

section Pieces
variable {F : FTy → Type} [FloatOps F]

theorem hz : (![0, 0] : Fin 2 → Nat) = fun _ => 0 := funext fun a => by fin_cases a <;> rfl

/-- Away from the first point the body leaves, in the one-row buffer holding `xo`, its one covering store's payload:
    `xo` plus the column sums of the input block `x` (both loads read the whole buffers). -/
theorem out_B (c : Dev nD) (i : grid0.Coords) (a1 : Memref sig .tc .vmem S5000x64 .f32) (h1 : a1.IsWhole)
    (a2 : Memref sig .tc .vmem S1x64 .f32) (h2 : a2.IsWhole) (hc : ¬cond0_0 i) (x : Vec F S5000x64 .f32) (xo : Vec F S1x64 .f32) :
    out0_B_1 c i a1 h1 a2 h2 hc x xo = k0_pay2 xo x := by
  unfold out0_B_1
  rw [View.read_writes_eq_canon _ _ _ (cover0_B_1 c i a1 h1 a2 h2 hc x xo)]
  unfold kernelRun0_B
  dsimp only
  sl_unfold_words
  rw [View.canon_unit_zero (S := S1x64) hz]
  simp only [View.readAt_eq_ld, h1.read_unread, h2.read_unread, View.ld_unit_zero (S := S1x64) hz,
    View.ld_unit_zero (S := S5000x64) hz]

/-- At the first point the body first stores the zero row, reads it back, and leaves the zero row plus the column sums
    of the input block `x`: the later of its two covering stores. -/
theorem out_A (c : Dev nD) (i : grid0.Coords) (a1 : Memref sig .tc .vmem S5000x64 .f32) (h1 : a1.IsWhole)
    (a2 : Memref sig .tc .vmem S1x64 .f32) (h2 : a2.IsWhole) (hc : cond0_0 i) (x : Vec F S5000x64 .f32) :
    out0_A_1 c i a1 h1 a2 h2 hc x = k0_pay2 (k0_pay1 (F := F)) x := by
  unfold out0_A_1
  rw [View.read_writes_eq_canon _ _ _ (cover0_A_1 c i a1 h1 a2 h2 hc x)]
  unfold kernelRun0_A
  dsimp only
  sl_unfold_words
  rw [View.canon_cons_unit_zero (S := S1x64) hz, View.readCov_unit_zero (S := S1x64) _ hz]
  simp only [View.readAt_eq_ld, h1.read_unread, View.ld_unit_zero (S := S5000x64) hz]
end Pieces

/-! ## The payloads at an index, over the extended reals -/

/-- The zero row is zero. -/
theorem pay1_apply (i : S1x64.Idx) : k0_pay1 (F := Ideal) i = 0 := Ideal.ofBits_zero_f32

/-- The accumulating payload at column `j`: the carried entry plus the sum of the block's column `j`. -/
theorem pay2_apply (v3 : Vec Ideal S1x64 .f32) (v5 : Vec Ideal S5000x64 .f32) (a : Fin 1) (j : Fin 64) :
    k0_pay2 (F := Ideal) v3 v5 (ix2 a j) = v3 (ix2 a j) + ∑ r : Fin 5000, v5 (ix2 r j) := by
  unfold k0_pay2
  dsimp only
  refine (addf_apply _ _ _).trans ?_
  refine congrArg₂ (· + ·) ?_ ?_
  · exact congrFun (shapeCast_self v3 _) _
  · refine (shapeCast_apply _ _ (ix2 a j) (ix1 j) ?_).trans ?_
    · rw [Shape.rowMajor_val_one, Shape.rowMajor_val_two]
      have := a.isLt
      show j.val = a.val * 64 + j.val
      omega
    · refine (Ideal.multiReduction_add_single _ _ _ _ _ (ix1 j)).trans ?_
      refine Finset.sum_congr rfl fun r _ => congrArg v5 ?_
      funext d
      match d with
      | ⟨0, _⟩ => rfl
      | ⟨1, _⟩ => rfl

/-! ## The input blocks and the running sums -/

section Blocks
variable (V : (c : Dev nD) → (b : Ref sig .tc) → Buf (Elt Ideal) ((c : Thread nD τ).loc b))

/-- The table as the region finds it, and its block at point `t`, at their literal types. -/
abbrev xarr (c : Dev nD) : Vec Ideal S100000x64 .f32 := V c main_arg0
abbrev xblk (c : Dev nD) (t : Fin cfg0.N) : Vec Ideal S5000x64 .f32 := iblk0 (F := Ideal) V c 0 t

/-- The input window's block index at point `t` is `(t, 0)`. -/
theorem index0 : ∀ t : Fin grid0.N, win0_0.index t 0 = t.val ∧ win0_0.index t 1 = 0 := by decide +kernel

/-- Row `r` of the block at point `t` is row `5000 t + r` of the table. -/
theorem xblk_apply (c : Dev nD) (t : Fin cfg0.N) (r : Fin 5000) (j : Fin 64) (h : 5000 * t.val + r.val < 100000) :
    xblk V c t (ix2 r j) = xarr V c (ix2 ⟨5000 * t.val + r.val, h⟩ j) := by
  unfold xblk xarr iblk0
  rw [View.read_apply]
  show V c main_arg0 _ = V c main_arg0 _
  congr 1
  funext a
  apply Fin.ext
  match a with
  | ⟨0, _⟩ => show win0_0.index t 0 * 5000 + 1 * r.val = 5000 * t.val + r.val; rw [(index0 t).1]; omega
  | ⟨1, _⟩ => show win0_0.index t 1 * 64 + 1 * j.val = j.val; rw [(index0 t).2]; omega

/-- Column `j` of the table as a function of the row NUMBER, zero past the last row. -/
def col (x : Vec Ideal S100000x64 .f32) (j : Fin 64) (k : ℕ) : EReal :=
  if h : k < 100000 then x (ix2 ⟨k, h⟩ j) else 0

/-- The sum of column `j` of the block at point `t` is the sum of the table's column over rows `5000 t … 5000 t + 4999`. -/
theorem xblk_sum (c : Dev nD) (t : Fin cfg0.N) (j : Fin 64) :
    ∑ r : Fin 5000, xblk V c t (ix2 r j) = ∑ k ∈ Finset.range 5000, col (xarr V c) j (5000 * t.val + k) := by
  have hN : t.val < 20 := lt_of_lt_of_eq t.isLt (show cfg0.N = 20 from N_0)
  rw [← Fin.sum_univ_eq_sum_range (fun k => col (xarr V c) j (5000 * t.val + k)) 5000]
  refine Finset.sum_congr rfl fun r _ => ?_
  have hr : 5000 * t.val + r.val < 100000 := by have := r.isLt; omega
  rw [xblk_apply V c t r j hr]
  unfold col
  rw [dif_pos hr]

/-- The whole column's sum, row number by row number. -/
theorem col_sum (x : Vec Ideal S100000x64 .f32) (j : Fin 64) :
    ∑ k ∈ Finset.range 100000, col x j k = ∑ r : Fin 100000, x (ix2 r j) := by
  rw [← Fin.sum_univ_eq_sum_range (col x j) 100000]
  refine Finset.sum_congr rfl fun r _ => ?_
  unfold col
  rw [dif_pos r.isLt]
end Blocks

/-! ## The accumulation, the write-back, the array -/

section Run
variable (V : (c : Dev nD) → (b : Ref sig .tc) → Buf (Elt Ideal) ((c : Thread nD τ).loc b))

/-- After point `n` the one-row buffer holds, at column `j`, the sum of the table's column `j` over the rows below
    `5000 (n + 1)`: by induction on the point, the first clearing and adding its block, every later one adding its own. -/
theorem outsAt_apply (c : Dev nD) : ∀ (n : ℕ) (h : n < cfg0.N) (a : Fin 1) (j : Fin 64),
    outsAt0 (F := Ideal) V c n h (ix2 a j) = ∑ k ∈ Finset.range (5000 * (n + 1)), col (xarr V c) j k
  | 0, h, a, j => by
    rw [outsAt0_A V c ⟨0, h⟩ rfl]
    refine (congrFun (out_A (F := Ideal) c (grid0.coords ⟨0, h⟩) (ms0_0 ⟨0, h⟩) (hs0_0 ⟨0, h⟩) (ms0_1 ⟨0, h⟩) (hs0_1 ⟨0, h⟩)
      ((hcond0_0 ⟨0, h⟩).mpr rfl) (xblk V c ⟨0, h⟩)) (ix2 a j)).trans ?_
    rw [pay2_apply, pay1_apply, zero_add, xblk_sum]
    refine Finset.sum_congr rfl fun k _ => ?_
    show col (xarr V c) j (5000 * 0 + k) = col (xarr V c) j k
    rw [Nat.mul_zero, Nat.zero_add]
  | n + 1, h, a, j => by
    have hN : cfg0.N = 20 := N_0
    have hB : ¬(⟨n + 1, h⟩ : Fin cfg0.N).val % 20 = 0 := by dsimp only; omega
    rw [outsAt0_B V c ⟨n + 1, h⟩ hB]
    refine (congrFun (out_B (F := Ideal) c (grid0.coords ⟨n + 1, h⟩) (ms0_0 ⟨n + 1, h⟩) (hs0_0 ⟨n + 1, h⟩) (ms0_1 ⟨n + 1, h⟩)
      (hs0_1 ⟨n + 1, h⟩) (fun h' => hB ((hcond0_0 ⟨n + 1, h⟩).mp h')) (xblk V c ⟨n + 1, h⟩)
      (outsAt0 (F := Ideal) V c n (Nat.lt_of_succ_lt h))) (ix2 a j)).trans ?_
    rw [pay2_apply, outsAt_apply c n (Nat.lt_of_succ_lt h) a j, xblk_sum,
      show 5000 * (n + 1 + 1) = 5000 * (n + 1) + 5000 from by omega, Finset.sum_range_add]

/-- The one write-back, at the last point, writes the column sums of the whole table: the block is the whole
    one-row array, and after point 19 the buffer holds the sums over all 100000 rows. -/
theorem flushed_eq (c : Dev nD) (t : Fin cfg0.N) (hf : (cfg0.win 1).flush t = true) :
    (dat0 (F := Ideal) V c).flushed 1 t = ((cfg0.win 1).blk t).view.read (Elt Ideal) (Out.colSum (xarr V c)) := by
  have hN : cfg0.N = 20 := N_0
  have h19 : t.val = 19 := by have := (flush0_1 t).mp hf; have := t.isLt; omega
  show (cfg0.win 1).cut (grid0.coords t) ((dat0 (F := Ideal) V c).after 1 t) = _
  rw [after0_1]
  have hz' : (fun a => win0_1.index t a * main_v30.ty.shape.size a) = fun _ => 0 := funext fun a => by
    fin_cases a <;> rfl
  refine Eq.trans ?_ (Memref.read_access_unit_zero (Elt Ideal) main_v30 hz' (fun a => by rw [congrFun hz' a]; simp)
    (Out.colSum (xarr V c))).symm
  funext i
  rw [eq_ix2 i]
  refine (outsAt_apply V c t.val t.isLt (i 0) (i 1)).trans ?_
  rw [h19]
  exact col_sum (xarr V c) (i 1)
end Run

section Cover

/-- The last point of the grid, the one that writes the output back. -/
abbrev tLast : Fin cfg0.N := ⟨19, by decide⟩

/-- The output window's block sits at offsets `(0, 0)` with the array's own extents `1 × 64`, at every point. -/
theorem blk1_facts : ∀ t : Fin grid0.N,
    (win0_1.index t 0 * win0_1.size 0 = 0 ∧ win0_1.xsize (grid0.coords t) 0 = 1)
      ∧ (win0_1.index t 1 * win0_1.size 1 = 0 ∧ win0_1.xsize (grid0.coords t) 1 = 64) := by decide +kernel

/-- So every index of the one-row array lies in the block of every point. -/
theorem mem_blk1 (t : Fin cfg0.N) (i : S1x64.Idx) : i ∈ ((cfg0.win 1).blk t).view.set := by
  show i ∈ ((View.whole main_v30).slice (win0_1.rect t)).set
  rw [View.set_slice_whole, Rect.mem_set_unit]
  intro a
  obtain ⟨⟨o0, s0⟩, o1, s1⟩ := blk1_facts t
  match a with
  | ⟨0, _⟩ =>
    show win0_1.index t 0 * win0_1.size 0 ≤ (i 0 : Nat)
      ∧ (i 0 : Nat) < win0_1.index t 0 * win0_1.size 0 + win0_1.xsize (grid0.coords t) 0
    have b0 : (i 0 : Nat) < 1 := (i 0).isLt
    rw [o0, s0]; exact ⟨Nat.zero_le _, by omega⟩
  | ⟨1, _⟩ =>
    show win0_1.index t 1 * win0_1.size 1 ≤ (i 1 : Nat)
      ∧ (i 1 : Nat) < win0_1.index t 1 * win0_1.size 1 + win0_1.xsize (grid0.coords t) 1
    have b1 : (i 1 : Nat) < 64 := (i 1).isLt
    rw [o1, s1]; exact ⟨Nat.zero_le _, by omega⟩
end Cover

variable (V : (c : Dev nD) → (b : Ref sig .tc) → Buf (Elt Ideal) ((c : Thread nD τ).loc b))

/-- The output array of region 0 after its run: the column sums of its input array. -/
theorem value (c : Dev nD) : (dat0 (F := Ideal) V c).arrAt 1 cfg0.N = Out.colSum (V c main_arg0) := by
  exact (dat0 (F := Ideal) V c).arrAt_eq_of_cover 1 (Out.colSum (xarr V c)) (flushed_eq V c) fun i =>
    ⟨tLast, (flush0_1 tLast).mpr rfl, mem_blk1 tLast i⟩

end Cert.KernelIdeal.Region0

end
-- ==== Proof.Region1.lean ====
/-
  Region 1 (the first dense layer) as a value: grid point `t` writes rows `5000 t … 5000 t + 4999` of the output,
  each entry the row of features against a column of the weight block plus the bias row's entry; the twenty blocks
  tile the output array.
-/
import proofs.«111441_j72146860638719_1_alg».proof.Proof.Gen.KernelIdeal.Frame
import proofs.«111441_j72146860638719_1_alg».proof.Proof.Out
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The block product's index maps, axis by axis -/

/-- The left operand is read in the result's row … -/
theorem lhs_product_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … at the contracted coordinate; -/
theorem lhs_product_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contracted coordinate … -/
theorem rhs_product_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … in the result's column. -/
theorem rhs_product_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## The body's arithmetic at an entry of the block -/

/-- The block product into the zero block, at row `r` and column `j`: the row of the left factor against the column of
    the right one. -/
theorem product_apply {φ₁ φ₂ : FTy} (a : FVec Ideal S5000x64 φ₁) (b : FVec Ideal S64x64 φ₂) (r : Fin 5000) (j : Fin 64) :
    FloatOps.matmul dot_S5000x64_S64x64_S5000x64_1_0_0_1_n_n none a b (constant (F := Ideal) S5000x64 .f32 0x00000000#32) (ix2 r j)
      = ∑ k : Fin 64, a (ix2 r k) * b (ix2 k j) := by
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j) ((contrEquiv1 dot_S5000x64_S64x64_S5000x64_1_0_0_1_n_n 64 rfl rfl).symm k) = ix2 r k := funext fun a => Fin.ext (by
    match a with
    | ⟨0, _⟩ => exact lhs_product_0 _ _
    | ⟨1, _⟩ => exact (lhs_product_1 _ _).trans hk)
  have er : dot_S5000x64_S64x64_S5000x64_1_0_0_1_n_n.rhsIdx (ix2 r j) ((contrEquiv1 dot_S5000x64_S64x64_S5000x64_1_0_0_1_n_n 64 rfl rfl).symm k) = ix2 k j := funext fun a => Fin.ext (by
    match a with
    | ⟨0, _⟩ => exact (rhs_product_0 _ _).trans hk
    | ⟨1, _⟩ => exact rhs_product_1 _ _)
  rw [el, er]

/-- The bias row repeated down the block, at row `r` and column `j`: the row's entry `j`. -/
theorem biasRows_apply (b : FVec Ideal S1x64 .f32) (r : Fin 5000) (j : Fin 64) :
    broadcastTo S5000x64 b broadcasts_S1x64_S5000x64 (ix2 r j) = b (ix2 0 j) :=
  broadcastTo_apply b broadcasts_S1x64_S5000x64 (ix2 r j) (ix2 0 j) (fun a => by
    match a with
    | ⟨0, _⟩ => rfl
    | ⟨1, _⟩ => rfl)

/-- The whole payload at row `r` and column `j` of the block. -/
theorem payload_apply (x0 : Vec Ideal S5000x64 .f32) (x1 : Vec Ideal S64x64 .f32) (x2 : Vec Ideal S1x64 .f32) (r : Fin 5000) (j : Fin 64) :
    k1_pay1 (F := Ideal) x0 x1 x2 (ix2 r j) = (∑ k : Fin 64, x0 (ix2 r k) * x1 (ix2 k j)) + x2 (ix2 0 j) := by
  unfold k1_pay1
  rw [shapeCast_self, shapeCast_self]
  refine (addf_apply _ _ _).trans ?_
  refine congrArg₂ (· + ·) ?_ (biasRows_apply x2 r j)
  exact product_apply (truncf .bf16 x0 bitsLt_bf16_f32) (truncf .bf16 x1 bitsLt_bf16_f32) r j

/-- The body's result at row `r`, column `j` of a block whose loaded rows are the features' rows at array row `i 0`,
    whose weight and bias blocks are the whole weight and bias: the entry `i` of the dense layer. -/
theorem payload_entry (X : FVec Ideal S100000x64 .f32) (W : FVec Ideal S64x64 .f32) (B : FVec Ideal S1x64 .f32)
    (x0 : Vec Ideal S5000x64 .f32) (x1 : Vec Ideal S64x64 .f32) (x2 : Vec Ideal S1x64 .f32)
    (i : S100000x64.Idx) (r : Fin 5000) (j : Fin 64)
    (h0 : ∀ k : Fin 64, x0 (ix2 r k) = X (ix2 (i 0) k))
    (h1 : ∀ k : Fin 64, x1 (ix2 k j) = W (ix2 k (i 1)))
    (h2 : x2 (ix2 0 j) = B (ix2 0 (i 1))) :
    k1_pay1 (F := Ideal) x0 x1 x2 (ix2 r j) = Out.lin1 X W B i := by
  rw [payload_apply]
  unfold Out.lin1
  rw [h2]
  refine congrArg (· + B (ix2 0 (i 1))) ?_
  exact Finset.sum_congr rfl fun k _ => by rw [h0 k, h1 k]

/-! ## From the blocks to the array -/

/-- Every store and load of the body starts at the block's corner. -/
theorem origin : (![0, 0] : Fin 2 → Nat) = fun _ => 0 := funext fun a => by fin_cases a <;> rfl

/-- The printed index maps, decided over the twenty points: the feature block moves with the output block down the
    rows, point `t` at block `t`; the weight and the bias are fetched whole. -/
theorem index_facts : ∀ t : Fin cfg1.N,
    win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the dense layer of the arrays as the region finds them. -/
theorem flushed_eq (c : Dev nD) (t : Fin cfg1.N) :
    (dat1 (F := Ideal) V c).flushed 3 t
      = ((cfg1.win 3).blk t).view.read (Elt Ideal) (Out.lin1 (V c main_arg0) (V c main_v33) (V c main_v35)) := by
  show (cfg1.win 3).cut (grid1.coords t) ((dat1 V c).after 3 t) = _
  rw [after1_3]
  unfold out1_3
  rw [View.canon_unit_zero origin]
  simp only [View.ld_unit_zero (S := S5000x64) origin, View.ld_unit_zero (S := S64x64) origin, View.ld_unit_zero (S := S1x64) origin]
  obtain ⟨e0, e1, e2, e3, e4, e5, e6, e7⟩ := index_facts t
  funext y
  obtain ⟨r, j, rfl⟩ : ∃ (r : Fin 5000) (j : Fin 64), y = ix2 r j := ⟨y 0, y 1, eq_ix2 y⟩
  show k1_pay1 (F := Ideal) (iblk1 V c 0 t) (iblk1 V c 1 t) (iblk1 V c 2 t) (ix2 r j)
    = Out.lin1 (V c main_arg0) (V c main_v33) (V c main_v35) (((cfg1.win 3).blk t).view.emb (ix2 r j))
  refine payload_entry (V c main_arg0) (V c main_v33) (V c main_v35) (iblk1 V c 0 t) (iblk1 V c 1 t) (iblk1 V c 2 t)
    (((cfg1.win 3).blk t).view.emb (ix2 r j)) r j (fun k => ?_) (fun k => ?_) ?_
  · show V c main_arg0 (((cfg1.win 0).blk t).view.emb (ix2 r k)) = _
    refine congrArg (V c main_arg0) (funext fun a => Fin.ext ?_)
    match a with
    | ⟨0, _⟩ => show win1_0.index t (0 : Fin 2) * 5000 + 1 * r.val = win1_3.index t (0 : Fin 2) * 5000 + 1 * r.val; omega
    | ⟨1, _⟩ => show win1_0.index t (1 : Fin 2) * 64 + 1 * k.val = k.val; omega
  · show V c main_v33 (((cfg1.win 1).blk t).view.emb (ix2 k j)) = _
    refine congrArg (V c main_v33) (funext fun a => Fin.ext ?_)
    match a with
    | ⟨0, _⟩ => show win1_1.index t (0 : Fin 2) * 64 + 1 * k.val = k.val; omega
    | ⟨1, _⟩ => show win1_1.index t (1 : Fin 2) * 64 + 1 * j.val = win1_3.index t (1 : Fin 2) * 64 + 1 * j.val; omega
  · show V c main_v35 (((cfg1.win 2).blk t).view.emb (ix2 0 j)) = _
    refine congrArg (V c main_v35) (funext fun a => Fin.ext ?_)
    match a with
    | ⟨0, _⟩ => show win1_2.index t (0 : Fin 2) * 1 + 1 * 0 = 0; omega
    | ⟨1, _⟩ => show win1_2.index t (1 : Fin 2) * 64 + 1 * j.val = win1_3.index t (1 : Fin 2) * 64 + 1 * j.val; omega

/-- An index of the array is in point `t`'s block iff each coordinate is in the block's range on its axis. -/
theorem mem_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v36).slice (win1_3.rect t)).set ↔ _
  rw [View.set_slice_whole, Rect.mem_set_unit]
  exact Iff.rfl

/-- The twenty blocks tile the array: row `r` lies in the block of point `r / 5000`. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 20 := N_1
  have hlt : (i 0).val / 5000 < grid1.N := by omega
  obtain ⟨-, -, -, -, -, -, e6, e7⟩ := index_facts ⟨(i 0).val / 5000, hlt⟩
  have e6' : win1_3.index ⟨(i 0).val / 5000, hlt⟩ (0 : Fin 2) = (i 0).val / 5000 := e6
  refine ⟨⟨(i 0).val / 5000, hlt⟩, flush1_3 _, ?_⟩
  rw [mem_block]
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    omega
  | ⟨1, _⟩ =>
    show win1_3.index ⟨(i 0).val / 5000, hlt⟩ (1 : Fin 2) * 64 ≤ (i 1).val ∧ (i 1).val < win1_3.index ⟨(i 0).val / 5000, hlt⟩ (1 : Fin 2) * 64 + 64
    omega

/-- The output array of region 1 after its run. -/
theorem value (c : Dev nD) :
    (dat1 (F := Ideal) V c).arrAt 3 cfg1.N = Out.lin1 (V c main_arg0) (V c main_v33) (V c main_v35) :=
  (dat1 (F := Ideal) V c).arrAt_eq_of_cover 3 (Out.lin1 (V c main_arg0) (V c main_v33) (V c main_v35))
    (fun t _ => flushed_eq V c t) covered

end Cert.KernelIdeal.Region1

end
-- ==== Proof.Region2.lean ====
/-
  Region 2 (bias and relu) as a value: grid point `t` writes rows `5000 t … 5000 t + 4999` of the output, each entry
  `max (a + b) 0` of the input entry and the bias row's entry; the twenty blocks tile the output array.
-/
import proofs.«111441_j72146860638719_1_alg».proof.Proof.Gen.KernelIdeal.Frame
import proofs.«111441_j72146860638719_1_alg».proof.Proof.Out
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's result at an entry of a block -/

/-- A whole-block access starts at the block's origin. -/
theorem origin : (![0, 0] : Fin 2 → Nat) = fun _ => 0 := funext fun a => by fin_cases a <;> rfl

/-- Entry `(r, j)` of what the body stores: the block's entry plus the bias row's entry `j`, cut below at `0`. -/
theorem stored_apply (x0 : Vec Ideal S5000x64 .f32) (x1 : Vec Ideal S1x64 .f32) (r : Fin 5000) (j : Fin 64) :
    k2_pay1 (F := Ideal) x0 x1 (ix2 r j) = max (x0 (ix2 r j) + x1 (ix2 0 j)) 0 := by
  unfold k2_pay1
  rw [maximumf_apply, addf_apply, broadcast_apply, shapeCast_self, shapeCast_self]
  rw [broadcastTo_apply x1 broadcasts_S1x64_S5000x64 (ix2 r j) (ix2 0 j) ?_]
  · show max _ (Ideal.ofBits .f32 0x00000000#32) = _
    rw [Ideal.ofBits_zero_f32]
  · intro a
    match a with
    | ⟨0, _⟩ => rfl
    | ⟨1, _⟩ => rfl

/-- The same entry against the two whole tables: when the block's entry `(r, j)` is the table's entry `i` in column `j`
    and the block of the bias row is the bias row, the stored entry is the bias-and-relu table's entry `i`. -/
theorem stored_eq_table (a : Vec Ideal S100000x64 .f32) (b : Vec Ideal S1x64 .f32) (x0 : Vec Ideal S5000x64 .f32)
    (x1 : Vec Ideal S1x64 .f32) (r : Fin 5000) (j : Fin 64) (i : S100000x64.Idx) (hj : i 1 = j)
    (h0 : x0 (ix2 r j) = a i) (h1 : x1 (ix2 0 j) = b (ix2 0 j)) :
    k2_pay1 (F := Ideal) x0 x1 (ix2 r j) = Out.biasRelu a b i := by
  rw [stored_apply, h0, h1]
  unfold Out.biasRelu
  rw [hj]

/-! ## The blocks over the grid -/

/-- The printed index maps at the twenty points: point `t` reads and writes row block `t` (column block `0`) of the
    two tables, and the bias row is its one block throughout. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the bias-and-relu table. -/
theorem written_block (c : Dev nD) (t : Fin cfg2.N) :
    (dat2 (F := Ideal) V c).flushed 2 t
      = ((cfg2.win 2).blk t).view.read (Elt Ideal) (Out.biasRelu (V c main_v48) (V c main_v49)) := by
  show (cfg2.win 2).cut (grid2.coords t) ((dat2 V c).after 2 t) = _
  rw [after2_2]
  unfold out2_2
  rw [View.canon_unit_zero origin]
  simp only [View.ld_unit_zero (S := S5000x64) origin, View.ld_unit_zero (S := S1x64) origin]
  obtain ⟨e0, e1, e2, e3, e4, e5⟩ := block_indices t
  funext y
  obtain ⟨r, j, rfl⟩ : ∃ (r : Fin 5000) (j : Fin 64), y = ix2 r j := ⟨y 0, y 1, eq_ix2 y⟩
  refine stored_eq_table (V c main_v48) (V c main_v49) (iblk2 V c 0 t) (iblk2 V c 1 t) r j
    (((cfg2.win 2).blk t).view.emb (ix2 r j)) ?_ ?_ ?_
  · apply Fin.ext
    show win2_2.index t (1 : Fin 2) * 64 + 1 * j.val = j.val
    rw [e5]; omega
  · show V c main_v48 (((cfg2.win 0).blk t).view.emb (ix2 r j)) = _
    refine congrArg (V c main_v48) (funext fun a => Fin.ext ?_)
    match a with
    | ⟨0, _⟩ =>
      show win2_0.index t (0 : Fin 2) * 5000 + 1 * r.val = win2_2.index t (0 : Fin 2) * 5000 + 1 * r.val
      rw [e0, e4]
    | ⟨1, _⟩ =>
      show win2_0.index t (1 : Fin 2) * 64 + 1 * j.val = win2_2.index t (1 : Fin 2) * 64 + 1 * j.val
      rw [e1, e5]
  · show V c main_v49 (((cfg2.win 1).blk t).view.emb (ix2 0 j)) = _
    refine congrArg (V c main_v49) (funext fun a => Fin.ext ?_)
    match a with
    | ⟨0, _⟩ =>
      show win2_1.index t (0 : Fin 2) * 1 + 1 * (0 : Fin 1).val = (0 : Fin 1).val
      rw [e2]; rfl
    | ⟨1, _⟩ =>
      show win2_1.index t (1 : Fin 2) * 64 + 1 * j.val = j.val
      rw [e3]; omega

/-- An entry of the output array lies in point `t`'s block iff each coordinate lies in the block's range on its axis. -/
theorem mem_block (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v50).slice (win2_2.rect t)).set ↔ _
  rw [View.set_slice_whole, Rect.mem_set_unit]
  exact Iff.rfl

/-- Row `ρ` of the output lies in the block of point `ρ / 5000`: the twenty blocks cover the array. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e4, e5⟩ := block_indices t
  refine ⟨t, flush2_2 t, ?_⟩
  rw [mem_block]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- The output array of region 2 after its run. -/
theorem value (c : Dev nD) :
    (dat2 (F := Ideal) V c).arrAt 2 cfg2.N = Out.biasRelu (V c main_v48) (V c main_v49) :=
  (dat2 V c).arrAt_eq_of_cover 2 (Out.biasRelu (V c main_v48) (V c main_v49)) (fun t _ => written_block V c t) covered

end Cert.KernelIdeal.Region2

end
-- ==== Proof.Region3.lean ====
/-
  Region 3 (the second dense layer) as a value: grid point `t` writes rows `5000 t … 5000 t + 4999` of the output,
  each entry the row of the hidden table against a column of the second weight; the twenty blocks tile the output array.
-/
import proofs.«111441_j72146860638719_1_alg».proof.Proof.Gen.KernelIdeal.Frame
import proofs.«111441_j72146860638719_1_alg».proof.Proof.Out
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's result at an entry of a block -/

/-- A whole-block access starts at the block's origin. -/
theorem origin : (![0, 0] : Fin 2 → Nat) = fun _ => 0 := funext fun a => by fin_cases a <;> rfl

/-- The product's left operand is read in the output's row … -/
theorem lhs_row (i : S5000x2.Idx) (q : dot_S5000x64_S64x2_S5000x2_1_0_0_1_n_n.contr.Idx) :
    (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
/-- … at the summation index as its column; -/
theorem lhs_col (i : S5000x2.Idx) (q : dot_S5000x64_S64x2_S5000x2_1_0_0_1_n_n.contr.Idx) :
    (dot_S5000x64_S64x2_S5000x2_1_0_0_1_n_n.lhsIdx i q 1).val = (q ⟨0, by decide⟩).val :=
  dot_S5000x64_S64x2_S5000x2_1_0_0_1_n_n.lhsIdx_val_of_single rfl i q
/-- the right operand at the summation index as its row … -/
theorem rhs_row (i : S5000x2.Idx) (q : dot_S5000x64_S64x2_S5000x2_1_0_0_1_n_n.contr.Idx) :
    (dot_S5000x64_S64x2_S5000x2_1_0_0_1_n_n.rhsIdx i q 0).val = (q ⟨0, by decide⟩).val :=
  dot_S5000x64_S64x2_S5000x2_1_0_0_1_n_n.rhsIdx_val_of_single rfl i q
/-- … in the output's column. -/
theorem rhs_col (i : S5000x2.Idx) (q : dot_S5000x64_S64x2_S5000x2_1_0_0_1_n_n.contr.Idx) :
    (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-- Entry `(r, j)` of what the body stores: row `r` of the hidden block against column `j` of the weight (on the extended
    reals the narrowing of the two operands changes nothing, and the product starts from zero). -/
theorem stored_apply (x0 : Vec Ideal S5000x64 .f32) (x1 : Vec Ideal S64x2 .f32) (r : Fin 5000) (j : Fin 2) :
    k3_pay1 (F := Ideal) x0 x1 (ix2 r j) = ∑ k : Fin 64, x0 (ix2 r k) * x1 (ix2 k j) := by
  unfold k3_pay1
  simp only [matmul]
  rw [Ideal.matmul_constant_zero_apply, ← Equiv.sum_comp (contrEquiv1 dot_S5000x64_S64x2_S5000x2_1_0_0_1_n_n 64 rfl rfl).symm]
  refine Finset.sum_congr rfl fun k _ => ?_
  have hk := contrEquiv1_symm_val dot_S5000x64_S64x2_S5000x2_1_0_0_1_n_n 64 rfl rfl k
  have el : dot_S5000x64_S64x2_S5000x2_1_0_0_1_n_n.lhsIdx (ix2 r j) ((contrEquiv1 dot_S5000x64_S64x2_S5000x2_1_0_0_1_n_n 64 rfl rfl).symm k) = ix2 r k := funext fun a => Fin.ext (by
    match a with
    | ⟨0, _⟩ => exact lhs_row _ _
    | ⟨1, _⟩ => exact (lhs_col _ _).trans hk)
  have er : dot_S5000x64_S64x2_S5000x2_1_0_0_1_n_n.rhsIdx (ix2 r j) ((contrEquiv1 dot_S5000x64_S64x2_S5000x2_1_0_0_1_n_n 64 rfl rfl).symm k) = ix2 k j := funext fun a => Fin.ext (by
    match a with
    | ⟨0, _⟩ => exact (rhs_row _ _).trans hk
    | ⟨1, _⟩ => exact rhs_col _ _)
  rw [el, er, truncf_apply, truncf_apply, shapeCast_self]

/-- The same entry against the two whole tables: when row `r` of the block is row `i 0` of the hidden table, the block of
    the weight is the weight, and `i` is in column `j`, the stored entry is the product table's entry `i`. -/
theorem stored_eq_table (h : Vec Ideal S100000x64 .f32) (w : Vec Ideal S64x2 .f32) (x0 : Vec Ideal S5000x64 .f32)
    (x1 : Vec Ideal S64x2 .f32) (r : Fin 5000) (j : Fin 2) (i : S100000x2.Idx) (hj : i 1 = j)
    (h0 : ∀ k : Fin 64, x0 (ix2 r k) = h (ix2 (i 0) k)) (h1 : ∀ k : Fin 64, x1 (ix2 k j) = w (ix2 k j)) :
    k3_pay1 (F := Ideal) x0 x1 (ix2 r j) = Out.lin2 h w i := by
  rw [stored_apply]
  unfold Out.lin2
  rw [hj]
  exact Finset.sum_congr rfl fun k _ => by rw [h0 k, h1 k]

/-! ## The blocks over the grid -/

/-- The printed index maps at the twenty points: point `t` reads row block `t` of the hidden table and writes row block
    `t` of the output (column block `0` of each), and the weight is its one block throughout. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product table. -/
theorem written_block (c : Dev nD) (t : Fin cfg3.N) :
    (dat3 (F := Ideal) V c).flushed 2 t
      = ((cfg3.win 2).blk t).view.read (Elt Ideal) (Out.lin2 (V c main_v50) (V c main_arg4)) := by
  show (cfg3.win 2).cut (grid3.coords t) ((dat3 V c).after 2 t) = _
  rw [after3_2]
  unfold out3_2
  rw [View.canon_unit_zero origin]
  simp only [View.ld_unit_zero (S := S5000x64) origin, View.ld_unit_zero (S := S64x2) origin]
  obtain ⟨e0, e1, e2, e3, e4, e5⟩ := block_indices t
  funext y
  obtain ⟨r, j, rfl⟩ : ∃ (r : Fin 5000) (j : Fin 2), y = ix2 r j := ⟨y 0, y 1, eq_ix2 y⟩
  refine stored_eq_table (V c main_v50) (V c main_arg4) (iblk3 V c 0 t) (iblk3 V c 1 t) r j
    (((cfg3.win 2).blk t).view.emb (ix2 r j)) ?_ ?_ ?_
  · apply Fin.ext
    show win3_2.index t (1 : Fin 2) * 2 + 1 * j.val = j.val
    rw [e5]; omega
  · intro k
    show V c main_v50 (((cfg3.win 0).blk t).view.emb (ix2 r k)) = _
    refine congrArg (V c main_v50) (funext fun a => Fin.ext ?_)
    match a with
    | ⟨0, _⟩ =>
      show win3_0.index t (0 : Fin 2) * 5000 + 1 * r.val = win3_2.index t (0 : Fin 2) * 5000 + 1 * r.val
      rw [e0, e4]
    | ⟨1, _⟩ =>
      show win3_0.index t (1 : Fin 2) * 64 + 1 * k.val = k.val
      rw [e1]; omega
  · intro k
    show V c main_arg4 (((cfg3.win 1).blk t).view.emb (ix2 k j)) = _
    refine congrArg (V c main_arg4) (funext fun a => Fin.ext ?_)
    match a with
    | ⟨0, _⟩ =>
      show win3_1.index t (0 : Fin 2) * 64 + 1 * k.val = k.val
      rw [e2]; omega
    | ⟨1, _⟩ =>
      show win3_1.index t (1 : Fin 2) * 2 + 1 * j.val = j.val
      rw [e3]; omega

/-- An entry of the output array lies in point `t`'s block iff each coordinate lies in the block's range on its axis. -/
theorem mem_block (t : Fin cfg3.N) (i : S100000x2.Idx) :
    i ∈ ((cfg3.win 2).blk t).view.set ↔ ∀ a : Fin 2, win3_2.index t a * S5000x2.size a ≤ (i a).val
      ∧ (i a).val < win3_2.index t a * S5000x2.size a + S5000x2.size a := by
  show i ∈ ((View.whole main_v51).slice (win3_2.rect t)).set ↔ _
  rw [View.set_slice_whole, Rect.mem_set_unit]
  exact Iff.rfl

/-- Row `ρ` of the output lies in the block of point `ρ / 5000`: the twenty blocks cover the array. -/
theorem covered (i : S100000x2.Idx) :
    ∃ t : Fin cfg3.N, (cfg3.win 2).flush t = true ∧ i ∈ ((cfg3.win 2).blk t).view.set := by
  have hi0 : (i 0).val < 100000 := (i 0).isLt
  have hi1 : (i 1).val < 2 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, e4, e5⟩ := block_indices t
  refine ⟨t, flush3_2 t, ?_⟩
  rw [mem_block]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 2 ≤ (i 1).val ∧ (i 1).val < win3_2.index t (1 : Fin 2) * 2 + 2
    omega

/-- The output array of region 3 after its run. -/
theorem value (c : Dev nD) :
    (dat3 (F := Ideal) V c).arrAt 2 cfg3.N = Out.lin2 (V c main_v50) (V c main_arg4) :=
  (dat3 V c).arrAt_eq_of_cover 2 (Out.lin2 (V c main_v50) (V c main_arg4)) (fun t _ => written_block V c t) covered

end Cert.KernelIdeal.Region3

end
-- ==== Proof.Fold.lean ====
/-
  The kernel program's result as a value. Its @main alternates host stretches and four regions; the contents of the
  buffers at each boundary are a fold from the launch memory. Walking that fold: the first stretches leave the
  graph part (source and destination rows, per-edge normalisation) computed from the edge list; region 0 leaves the
  column sums of the features; the next stretch the mean row through the lower half of the first weight; region 1 the
  first dense table; the next stretch its propagation step and the bias row; region 2 the hidden table; region 3 the
  second dense table; the last stretch its propagation step plus the second bias. Buffers that nothing in between
  writes are carried unchanged. The end is `Out.out` of the six arguments.
-/
import proofs.«111441_j72146860638719_1_alg».proof.Proof.Gen.KernelIdeal.Frame
import proofs.«111441_j72146860638719_1_alg».proof.Proof.Out
import proofs.«111441_j72146860638719_1_alg».proof.Proof.Region0
import proofs.«111441_j72146860638719_1_alg».proof.Proof.Region1
import proofs.«111441_j72146860638719_1_alg».proof.Proof.Region2
import proofs.«111441_j72146860638719_1_alg».proof.Proof.Region3
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-! ## The arguments as launched -/

abbrev xs (c : Dev nD) : FVec F S100000x64 .f32 := m ((c : Thread nD τ).loc main_arg0)
abbrev edges (c : Dev nD) : IVec S2x1600000 32 := m ((c : Thread nD τ).loc main_arg1)
abbrev w1s (c : Dev nD) : FVec F S128x64 .f32 := m ((c : Thread nD τ).loc main_arg2)
abbrev b1s (c : Dev nD) : FVec F S64 .f32 := m ((c : Thread nD τ).loc main_arg3)
abbrev w2s (c : Dev nD) : FVec F S64x2 .f32 := m ((c : Thread nD τ).loc main_arg4)
abbrev b2s (c : Dev nD) : FVec F S2 .f32 := m ((c : Thread nD τ).loc main_arg5)

/-! ## At region 0's entry: the graph part is computed, the arguments untouched -/

theorem W3_v1 (c : Dev nD) : W3 m ρ c (Proc.devRef .tc main_v1) = Out.src (edges m c) := by
  show after hostOps0_2 (after hostOps0_1 (after hostOps0 (W0 m ρ c))) (Proc.devRef .tc main_v1) = _
  after_results; rfl
theorem W3_v3 (c : Dev nD) : W3 m ρ c (Proc.devRef .tc main_v3) = Out.dst (edges m c) := by
  show after hostOps0_2 (after hostOps0_1 (after hostOps0 (W0 m ρ c))) (Proc.devRef .tc main_v3) = _
  after_results; rfl
theorem W3_v29 (c : Dev nD) : W3 m ρ c (Proc.devRef .tc main_v29) = Out.nrm (F := F) (edges m c) := by
  show after hostOps0_2 (after hostOps0_1 (after hostOps0 (W0 m ρ c))) (Proc.devRef .tc main_v29) = _
  after_results_simp; rfl
theorem W3_arg0 (c : Dev nD) : W3 m ρ c (Proc.devRef .tc main_arg0) = xs m c := by
  show after hostOps0_2 (after hostOps0_1 (after hostOps0 (W0 m ρ c))) (Proc.devRef .tc main_arg0) = _
  after_results_simp
theorem W3_arg2 (c : Dev nD) : W3 m ρ c (Proc.devRef .tc main_arg2) = w1s m c := by
  show after hostOps0_2 (after hostOps0_1 (after hostOps0 (W0 m ρ c))) (Proc.devRef .tc main_arg2) = _
  after_results_simp
theorem W3_arg3 (c : Dev nD) : W3 m ρ c (Proc.devRef .tc main_arg3) = b1s m c := by
  show after hostOps0_2 (after hostOps0_1 (after hostOps0 (W0 m ρ c))) (Proc.devRef .tc main_arg3) = _
  after_results_simp
theorem W3_arg4 (c : Dev nD) : W3 m ρ c (Proc.devRef .tc main_arg4) = w2s m c := by
  show after hostOps0_2 (after hostOps0_1 (after hostOps0 (W0 m ρ c))) (Proc.devRef .tc main_arg4) = _
  after_results_simp
theorem W3_arg5 (c : Dev nD) : W3 m ρ c (Proc.devRef .tc main_arg5) = b2s m c := by
  show after hostOps0_2 (after hostOps0_1 (after hostOps0 (W0 m ρ c))) (Proc.devRef .tc main_arg5) = _
  after_results_simp

/-! ## Carried buffers: what no region stages and no later stretch writes -/

/-- Up to region 1's exit. -/
theorem carried6 (c : Dev nD) (b : Ref sig .tc)
    (h0 : ∀ w, Pipeline.arrRef spec0 w ≠ b) (h1 : ∀ w, Pipeline.arrRef spec1 w ≠ b)
    (k1 : ∀ W : Valuation τ sig (Elt F), after hostOps1 W (Proc.devRef .tc b) = W (Proc.devRef .tc b)) :
    W4 m ρ c (Proc.devRef .tc b) = W3 m ρ c (Proc.devRef .tc b)
    ∧ W6 m ρ c (Proc.devRef .tc b) = W3 m ρ c (Proc.devRef .tc b) := by
  have e4 := W4_of_ne m ρ c b h0
  have e5 : W5 m ρ c (Proc.devRef .tc b) = W4 m ρ c (Proc.devRef .tc b) := k1 _
  exact ⟨e4, (W6_of_ne m ρ c b h1).trans (e5.trans e4)⟩

/-- Up to region 3's entry. -/
theorem carried8 (c : Dev nD) (b : Ref sig .tc)
    (h0 : ∀ w, Pipeline.arrRef spec0 w ≠ b) (h1 : ∀ w, Pipeline.arrRef spec1 w ≠ b) (h2 : ∀ w, Pipeline.arrRef spec2 w ≠ b)
    (k1 : ∀ W : Valuation τ sig (Elt F), after hostOps1 W (Proc.devRef .tc b) = W (Proc.devRef .tc b))
    (k2 : ∀ W : Valuation τ sig (Elt F), after hostOps2 W (Proc.devRef .tc b) = W (Proc.devRef .tc b)) :
    W8 m ρ c (Proc.devRef .tc b) = W3 m ρ c (Proc.devRef .tc b) := by
  have e7 : W7 m ρ c (Proc.devRef .tc b) = W6 m ρ c (Proc.devRef .tc b) := k2 _
  exact (W8_of_ne m ρ c b h2).trans (e7.trans (carried6 m ρ c b h0 h1 k1).2)

/-- Up to region 3's exit. -/
theorem carried9 (c : Dev nD) (b : Ref sig .tc)
    (h0 : ∀ w, Pipeline.arrRef spec0 w ≠ b) (h1 : ∀ w, Pipeline.arrRef spec1 w ≠ b) (h2 : ∀ w, Pipeline.arrRef spec2 w ≠ b)
    (h3 : ∀ w, Pipeline.arrRef spec3 w ≠ b)
    (k1 : ∀ W : Valuation τ sig (Elt F), after hostOps1 W (Proc.devRef .tc b) = W (Proc.devRef .tc b))
    (k2 : ∀ W : Valuation τ sig (Elt F), after hostOps2 W (Proc.devRef .tc b) = W (Proc.devRef .tc b)) :
    W9 m ρ c (Proc.devRef .tc b) = W3 m ρ c (Proc.devRef .tc b) :=
  (W9_of_ne m ρ c b h3).trans (carried8 m ρ c b h0 h1 h2 k1 k2)

theorem keep1_v1 (W : Valuation τ sig (Elt F)) : after hostOps1 W (Proc.devRef .tc main_v1) = W (Proc.devRef .tc main_v1) := by after_results
theorem keep1_v3 (W : Valuation τ sig (Elt F)) : after hostOps1 W (Proc.devRef .tc main_v3) = W (Proc.devRef .tc main_v3) := by after_results
theorem keep1_v29 (W : Valuation τ sig (Elt F)) : after hostOps1 W (Proc.devRef .tc main_v29) = W (Proc.devRef .tc main_v29) := by after_results
theorem keep1_arg3 (W : Valuation τ sig (Elt F)) : after hostOps1 W (Proc.devRef .tc main_arg3) = W (Proc.devRef .tc main_arg3) := by after_results
theorem keep1_arg4 (W : Valuation τ sig (Elt F)) : after hostOps1 W (Proc.devRef .tc main_arg4) = W (Proc.devRef .tc main_arg4) := by after_results
theorem keep1_arg5 (W : Valuation τ sig (Elt F)) : after hostOps1 W (Proc.devRef .tc main_arg5) = W (Proc.devRef .tc main_arg5) := by after_results
theorem keep1_arg0 (W : Valuation τ sig (Elt F)) : after hostOps1 W (Proc.devRef .tc main_arg0) = W (Proc.devRef .tc main_arg0) := by after_results
theorem keep2_v1 (W : Valuation τ sig (Elt F)) : after hostOps2 W (Proc.devRef .tc main_v1) = W (Proc.devRef .tc main_v1) := by after_results
theorem keep2_v3 (W : Valuation τ sig (Elt F)) : after hostOps2 W (Proc.devRef .tc main_v3) = W (Proc.devRef .tc main_v3) := by after_results
theorem keep2_v29 (W : Valuation τ sig (Elt F)) : after hostOps2 W (Proc.devRef .tc main_v29) = W (Proc.devRef .tc main_v29) := by after_results
theorem keep2_arg4 (W : Valuation τ sig (Elt F)) : after hostOps2 W (Proc.devRef .tc main_arg4) = W (Proc.devRef .tc main_arg4) := by after_results
theorem keep2_arg5 (W : Valuation τ sig (Elt F)) : after hostOps2 W (Proc.devRef .tc main_arg5) = W (Proc.devRef .tc main_arg5) := by after_results

/-! ## Through the regions, at the extended reals -/

section AtIdeal
variable (m : (ℓ : Loc nD τ sig) → Buf (Elt Ideal) ℓ) (ρ : Dev nD → PrngReg) (c : Dev nD)

/-- Region 0 reads the features as launched. -/
theorem W4_arg0 : W4 m ρ c (Proc.devRef .tc main_arg0) = xs m c :=
  ((W4_arr m ρ c 0).trans (((dat0 (V3 m ρ) c).arrAt_in 0 rfl _).trans (A_eq0 (V3 m ρ) c 0))).trans (W3_arg0 m ρ c)
/-- Region 0 leaves the column sums. -/
theorem W4_v30 : W4 m ρ c (Proc.devRef .tc main_v30) = Out.colSum (xs m c) :=
  (W4_arr m ρ c 1).trans ((Region0.value (V3 m ρ) c).trans (congrArg Out.colSum (W3_arg0 m ρ c)))
theorem W4_arg2 : W4 m ρ c (Proc.devRef .tc main_arg2) = w1s m c :=
  (W4_of_ne m ρ c main_arg2 (by decide)).trans (W3_arg2 m ρ c)

/-- The stretch before region 1: the upper half of the first weight, and the mean row through its lower half. -/
theorem W5_v33 : W5 m ρ c (Proc.devRef .tc main_v33) = extractStridedSlice S64x64 ![0, 0] (w1s m c) slices_S128x64_S64x64_0_0 := by
  show after hostOps1 (W4 m ρ c) (Proc.devRef .tc main_v33) = _
  after_results; rw [W4_arg2]
theorem W5_v35 : W5 m ρ c (Proc.devRef .tc main_v35) = Out.meanRow (xs m c) (w1s m c) := by
  show after hostOps1 (W4 m ρ c) (Proc.devRef .tc main_v35) = _
  after_results; rw [W4_arg2, W4_v30]; rfl
theorem W5_arg0 : W5 m ρ c (Proc.devRef .tc main_arg0) = xs m c :=
  (keep1_arg0 (W4 m ρ c)).trans (W4_arg0 m ρ c)

/-- Region 1 leaves the first dense table. -/
theorem W6_v36 : W6 m ρ c (Proc.devRef .tc main_v36) = Out.h1 (xs m c) (w1s m c) := by
  refine (W6_arr m ρ c 3).trans ((Region1.value (V5 m ρ) c).trans ?_)
  show Out.lin1 (W5 m ρ c (Proc.devRef .tc main_arg0)) (W5 m ρ c (Proc.devRef .tc main_v33)) (W5 m ρ c (Proc.devRef .tc main_v35)) = _
  rw [W5_arg0, W5_v33, W5_v35]; rfl

theorem W6_v1 : W6 m ρ c (Proc.devRef .tc main_v1) = Out.src (edges m c) :=
  ((carried6 m ρ c main_v1 (by decide) (by decide) keep1_v1).2).trans (W3_v1 m ρ c)
theorem W6_v3 : W6 m ρ c (Proc.devRef .tc main_v3) = Out.dst (edges m c) :=
  ((carried6 m ρ c main_v3 (by decide) (by decide) keep1_v3).2).trans (W3_v3 m ρ c)
theorem W6_v29 : W6 m ρ c (Proc.devRef .tc main_v29) = Out.nrm (F := Ideal) (edges m c) :=
  ((carried6 m ρ c main_v29 (by decide) (by decide) keep1_v29).2).trans (W3_v29 m ρ c)
theorem W6_arg3 : W6 m ρ c (Proc.devRef .tc main_arg3) = b1s m c :=
  ((carried6 m ρ c main_arg3 (by decide) (by decide) keep1_arg3).2).trans (W3_arg3 m ρ c)

/-- The stretch before region 2: the first propagation step, and the first bias as a row. -/
theorem W7_v48 : W7 m ρ c (Proc.devRef .tc main_v48) = Out.agg64 (F := Ideal) (edges m c) (Out.h1 (xs m c) (w1s m c)) := by
  show after hostOps2 (W6 m ρ c) (Proc.devRef .tc main_v48) = _
  after_results; rw [W6_v36, W6_v1, W6_v3, W6_v29]; rfl
theorem W7_v49 : W7 m ρ c (Proc.devRef .tc main_v49) = shapeCast S1x64 (b1s m c) shapeCasts_S64_S1x64 := by
  show after hostOps2 (W6 m ρ c) (Proc.devRef .tc main_v49) = _
  after_results; rw [W6_arg3]; rfl

/-- Region 2 leaves the hidden table. -/
theorem W8_v50 : W8 m ρ c (Proc.devRef .tc main_v50) = Out.hidden (xs m c) (edges m c) (w1s m c) (b1s m c) := by
  refine (W8_arr m ρ c 2).trans ((Region2.value (V7 m ρ) c).trans ?_)
  show Out.biasRelu (W7 m ρ c (Proc.devRef .tc main_v48)) (W7 m ρ c (Proc.devRef .tc main_v49)) = _
  rw [W7_v48, W7_v49]; rfl
theorem W8_arg4 : W8 m ρ c (Proc.devRef .tc main_arg4) = w2s m c :=
  (carried8 m ρ c main_arg4 (by decide) (by decide) (by decide) keep1_arg4 keep2_arg4).trans (W3_arg4 m ρ c)

/-- Region 3 leaves the second dense table. -/
theorem W9_v51 : W9 m ρ c (Proc.devRef .tc main_v51)
    = Out.lin2 (Out.hidden (xs m c) (edges m c) (w1s m c) (b1s m c)) (w2s m c) := by
  refine (W9_arr m ρ c 2).trans ((Region3.value (V8 m ρ) c).trans ?_)
  show Out.lin2 (W8 m ρ c (Proc.devRef .tc main_v50)) (W8 m ρ c (Proc.devRef .tc main_arg4)) = _
  rw [W8_v50, W8_arg4]

theorem W9_v1 : W9 m ρ c (Proc.devRef .tc main_v1) = Out.src (edges m c) :=
  (carried9 m ρ c main_v1 (by decide) (by decide) (by decide) (by decide) keep1_v1 keep2_v1).trans (W3_v1 m ρ c)
theorem W9_v3 : W9 m ρ c (Proc.devRef .tc main_v3) = Out.dst (edges m c) :=
  (carried9 m ρ c main_v3 (by decide) (by decide) (by decide) (by decide) keep1_v3 keep2_v3).trans (W3_v3 m ρ c)
theorem W9_v29 : W9 m ρ c (Proc.devRef .tc main_v29) = Out.nrm (F := Ideal) (edges m c) :=
  (carried9 m ρ c main_v29 (by decide) (by decide) (by decide) (by decide) keep1_v29 keep2_v29).trans (W3_v29 m ρ c)
theorem W9_arg5 : W9 m ρ c (Proc.devRef .tc main_arg5) = b2s m c :=
  (carried9 m ρ c main_arg5 (by decide) (by decide) (by decide) (by decide) keep1_arg5 keep2_arg5).trans (W3_arg5 m ρ c)

/-- The last stretch: the second propagation step plus the second bias. The program's result is `Out.out` of the
    six arguments as launched. -/
theorem result : W10 m ρ c (Proc.devRef .tc main_v66)
    = Out.out (xs m c) (edges m c) (w1s m c) (b1s m c) (w2s m c) (b2s m c) := by
  show after hostOps4 (W9 m ρ c) (Proc.devRef .tc main_v66) = _
  after_results; rw [W9_v51, W9_v1, W9_v3, W9_v29, W9_arg5]; rfl

end AtIdeal

end Cert.KernelIdeal.Fold

end
-- ==== Proof.lean ====
/-
  The certificate of a two-layer graph convolution with a mean-pooled input: the kernel program (four tiled regions
  among host gathers and scatter-adds) against its jnp reference, over the extended reals.

  Both programs compute one function of the six arguments, `Out.out` (Proof/Out.lean): the graph normalisation from
  the edge list; the column mean of the features; the first dense layer, where the kernel adds the mean row through the
  lower half of the weight to the features through its upper half and the reference multiplies the concatenation
  [features | mean] with the whole weight — the same sum of 128 products, split in two; a propagation step (gather at
  the sources, scale per edge, scatter-add at the destinations); bias and relu; the second dense layer; a second
  propagation step; the second bias. No step needs more of the extended reals than that addition is commutative and
  associative, so the precondition is never opened.

  The kernel's side: the launch with the result array named (Proof/KernelRun.lean), the boundary contents walked through
  the four regions (Proof/Fold.lean over Proof/Region0 … Region3.lean). The reference's side: its run read back
  (Proof/RefRun.lean, Proof/RefRead.lean) and its stages identified with the same function (Proof/RefDense.lean,
  Proof/RefOut.lean). The idealization rewrote nothing, so `preserves` is `True`.
-/
import proofs.«111441_j72146860638719_1_alg».proof.Defs
import proofs.«111441_j72146860638719_1_alg».proof.Proof.Gen.Kernel
import proofs.«111441_j72146860638719_1_alg».proof.Proof.Gen.Kernel.Skeleton
import proofs.«111441_j72146860638719_1_alg».proof.Proof.Gen.Kernel.Launch
import proofs.«111441_j72146860638719_1_alg».proof.Proof.Gen.Kernel.Points
import proofs.«111441_j72146860638719_1_alg».proof.Proof.Gen.Kernel.Frame
import proofs.«111441_j72146860638719_1_alg».proof.Proof.Gen.KernelIdeal
import proofs.«111441_j72146860638719_1_alg».proof.Proof.Gen.KernelIdeal.Skeleton
import proofs.«111441_j72146860638719_1_alg».proof.Proof.Gen.KernelIdeal.Launch
import proofs.«111441_j72146860638719_1_alg».proof.Proof.Gen.KernelIdeal.Points
import proofs.«111441_j72146860638719_1_alg».proof.Proof.Gen.KernelIdeal.Frame
import proofs.«111441_j72146860638719_1_alg».proof.Proof.Gen.ReferenceIdeal
import proofs.«111441_j72146860638719_1_alg».proof.Proof.Gen.Pre_finite_inputs
import proofs.«111441_j72146860638719_1_alg».proof.Proof.RefRead
import proofs.«111441_j72146860638719_1_alg».proof.Proof.RefOut
import proofs.«111441_j72146860638719_1_alg».proof.Proof.KernelRun
import proofs.«111441_j72146860638719_1_alg».proof.Proof.Fold
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at `Out.out` of arguments that agree. -/
theorem algebraic : Cert.algebraic_KernelIdeal_ReferenceIdeal := by
  intro m ρ m' ρ' _ hagree
  refine ⟨fun c => Cert.KernelIdeal.Out.out (Cert.KernelIdeal.Fold.xs m c) (Cert.KernelIdeal.Fold.edges m c)
      (Cert.KernelIdeal.Fold.w1s m c) (Cert.KernelIdeal.Fold.b1s m c) (Cert.KernelIdeal.Fold.w2s m c)
      (Cert.KernelIdeal.Fold.b2s m c), ?_, ?_⟩
  · exact (θ_run Cert.KernelIdeal.defs _ _).mono
      (fun _ h c => ⟨(h c).1.trans (Cert.KernelIdeal.Fold.result m ρ c), (h c).2⟩)
      (Cert.KernelIdeal.Launched.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v94_eq, Cert.ReferenceIdeal.OutEq.out_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
